-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 8192#32
  let main_v18 : IVec S4096 32 := broadcastInDim S4096 ![] bcast_S_S4096 main_c_6
  let main_v19 : IVec S4096 1 := cmpi .slt main_arg2 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  main_v21

def fn {F : FTy → Type} [FloatOps F] (main_arg0 : FVec F S4096x512 .f32) (main_arg1 : IVec S4096 32) (main_arg2 : IVec S4096 32) (main_arg3 : FVec F S8192x512 .f32) (main_arg4 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 1 := constantI S_ 1 1#1
  fn_part1 (F := F) main_arg2 main_v13 main_v15 main_c_5
-- ==== Kernel.lean ====
abbrev S4096x512 : Shape := ⟨2, ![4096, 512]⟩
abbrev S4096 : Shape := ⟨1, ![4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S4096x1024 : Shape := ⟨2, ![4096, 1024]⟩
abbrev S8192x1024 : Shape := ⟨2, ![8192, 1024]⟩
abbrev S1x8192 : Shape := ⟨2, ![1, 8192]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S1x512 : Shape := ⟨2, ![1, 512]⟩
abbrev S1024 : Shape := ⟨1, ![1024]⟩

abbrev nBuf : Space → Nat
  | .hbm => 98
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096, .i32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .i1⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096x512, .f32⟩
  | .hbm, ⟨71, _⟩ => ⟨S4096x1024, .f32⟩
  | .hbm, ⟨72, _⟩ => ⟨S4096x1024, .bf16⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S8192x1024, .f32⟩
  | .hbm, ⟨78, _⟩ => ⟨S8192x1024, .bf16⟩
  | .hbm, ⟨79, _⟩ => ⟨S8192, .f32⟩
  | .hbm, ⟨80, _⟩ => ⟨S1x8192, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x1, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S8192x1024, .bf16⟩
  | .local _ .vmem, ⟨3, _⟩ => ⟨S1x8192, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v0 : Ref sig .tc := ⟨.hbm, 18, rfl⟩
abbrev main_call0_v1 : Ref sig .tc := ⟨.hbm, 19, rfl⟩
abbrev main_call0_call1_v0 : Ref sig .tc := ⟨.hbm, 20, rfl⟩
abbrev main_call0_call1_cst : Ref sig .tc := ⟨.hbm, 21, rfl⟩
abbrev main_call0_call1_v1 : Ref sig .tc := ⟨.hbm, 22, rfl⟩
abbrev main_call0_call1_v2 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_cst_0 : Ref sig .tc := ⟨.hbm, 30, rfl⟩
abbrev main_call0_v7 : Ref sig .tc := ⟨.hbm, 31, rfl⟩
abbrev main_call0_v8 : Ref sig .tc := ⟨.hbm, 32, rfl⟩
abbrev main_call0_call2_v0 : Ref sig .tc := ⟨.hbm, 33, rfl⟩
abbrev main_call0_call2_cst : Ref sig .tc := ⟨.hbm, 34, rfl⟩
abbrev main_call0_call2_v1 : Ref sig .tc := ⟨.hbm, 35, rfl⟩
abbrev main_call0_call2_v2 : Ref sig .tc := ⟨.hbm, 36, rfl⟩
abbrev main_call0_v9 : Ref sig .tc := ⟨.hbm, 37, rfl⟩
abbrev main_call0_cst_1 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_cst_2 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_cst_4 : Ref sig .tc := ⟨.hbm, 51, rfl⟩
abbrev main_call0_v20 : Ref sig .tc := ⟨.hbm, 52, rfl⟩
abbrev main_call0_v21 : Ref sig .tc := ⟨.hbm, 53, rfl⟩
abbrev main_call0_v22 : Ref sig .tc := ⟨.hbm, 54, rfl⟩
abbrev main_call0_v23 : Ref sig .tc := ⟨.hbm, 55, rfl⟩
abbrev main_call0_cst_5 : Ref sig .tc := ⟨.hbm, 56, rfl⟩
abbrev main_call0_v24 : Ref sig .tc := ⟨.hbm, 57, rfl⟩
abbrev main_call0_v25 : Ref sig .tc := ⟨.hbm, 58, rfl⟩
abbrev main_call0_v26 : Ref sig .tc := ⟨.hbm, 59, rfl⟩
abbrev main_call0_v27 : Ref sig .tc := ⟨.hbm, 60, rfl⟩
abbrev main_call0_cst_6 : Ref sig .tc := ⟨.hbm, 61, rfl⟩
abbrev main_call0_v28 : Ref sig .tc := ⟨.hbm, 62, rfl⟩
abbrev main_call0_v29 : Ref sig .tc := ⟨.hbm, 63, rfl⟩
abbrev main_call0_cst_7 : Ref sig .tc := ⟨.hbm, 64, rfl⟩
abbrev main_call0_v30 : Ref sig .tc := ⟨.hbm, 65, rfl⟩
abbrev main_call0_cst_8 : Ref sig .tc := ⟨.hbm, 66, rfl⟩
abbrev main_call0_v31 : Ref sig .tc := ⟨.hbm, 67, rfl⟩
abbrev main_call0_cst_9 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_v35 : Ref sig .tc := ⟨.hbm, 72, rfl⟩
abbrev main_call0_v36 : Ref sig .tc := ⟨.hbm, 73, rfl⟩
abbrev main_call0_cst_10 : Ref sig .tc := ⟨.hbm, 74, rfl⟩
abbrev main_call0_v37 : Ref sig .tc := ⟨.hbm, 75, rfl⟩
abbrev main_call0_v38 : Ref sig .tc := ⟨.hbm, 76, rfl⟩
abbrev main_call0_v39 : Ref sig .tc := ⟨.hbm, 77, rfl⟩
abbrev main_call0_v40 : Ref sig .tc := ⟨.hbm, 78, rfl⟩
abbrev main_call0_v41 : Ref sig .tc := ⟨.hbm, 79, rfl⟩
abbrev main_call0_v42 : Ref sig .tc := ⟨.hbm, 80, rfl⟩
abbrev main_call0_c : Ref sig .tc := ⟨.hbm, 81, rfl⟩
abbrev main_call0_c_11 : Ref sig .tc := ⟨.hbm, 82, rfl⟩
abbrev main_call0_call3_v0 : Ref sig .tc := ⟨.hbm, 83, rfl⟩
abbrev main_call0_call3_v1 : Ref sig .tc := ⟨.hbm, 84, rfl⟩
abbrev main_call0_call3_v2 : Ref sig .tc := ⟨.hbm, 85, rfl⟩
abbrev main_call0_call3_v3 : Ref sig .tc := ⟨.hbm, 86, rfl⟩
abbrev main_call0_call3_v4 : Ref sig .tc := ⟨.hbm, 87, rfl⟩
abbrev main_call0_v43 : Ref sig .tc := ⟨.hbm, 88, rfl⟩
abbrev main_call0_v44 : Ref sig .tc := ⟨.hbm, 89, rfl⟩
abbrev main_call0_v45 : Ref sig .tc := ⟨.hbm, 90, rfl⟩
abbrev main_call0_cst_12 : Ref sig .tc := ⟨.hbm, 91, rfl⟩
abbrev main_call0_v46 : Ref sig .tc := ⟨.hbm, 92, rfl⟩
abbrev main_call0_cst_13 : Ref sig .tc := ⟨.hbm, 93, rfl⟩
abbrev main_call0_v47 : Ref sig .tc := ⟨.hbm, 94, rfl⟩
abbrev main_call0_cst_14 : Ref sig .tc := ⟨.hbm, 95, rfl⟩
abbrev main_call0_v48 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v14 : BitVec 32 := Scalar.muli arg6 c512_i32
  v14
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v14 : BitVec 32 := Scalar.muli arg6 c512_i32
  let v15 : BitVec 32 := v14
  let v16 : Index := Scalar.indexCast v15
  let c0_8 : Index := 0#32
  ![v16.toNat, 0]
def k0_off2 (k0_t1 : Fin k0_t1_loop.trips) : Fin 2 → Nat :=
  let c0_9 : Index := 0#32
  let c0_i32 : BitVec 32 := 0#32
  let c1_i32 : BitVec 32 := 1#32
  let arg6 : BitVec 32 := Scf.iv c0_i32 c1_i32 k0_t1
  let c512_i32 : BitVec 32 := 512#32
  let v14 : BitVec 32 := Scalar.muli arg6 c512_i32
  let v15 : BitVec 32 := v14
  let v19 : Index := Scalar.indexCast v15
  ![0, v19.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  reducesTo_S8192_S_d0 : S8192.ReducesTo [0] S_
  concatenates_S4096x512_S4096x512_S4096x1024_d1 : Shape.Concatenates [S4096x512, S4096x512] S4096x1024 1
  bitsLt_bf16_f32 : FTy.bits .bf16 < FTy.bits .f32
  concatenates_S8192x512_S8192x512_S8192x1024_d1 : Shape.Concatenates [S8192x512, S8192x512] S8192x1024 1
  shapeCasts_S8192_S1x8192 : S8192.ShapeCasts S1x8192
  bcast_S_S4096 : S_.BroadcastsInDim S4096 (![] : Fin 0 → Fin S4096.rank)
  shapeCasts_S4096_S4096x1 : S4096.ShapeCasts S4096x1
  reducesTo_S4096x1_S_d0_1 : S4096x1.ReducesTo [0, 1] S_
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d1_w32 : S1024x512.Iotas .tc 32 [1]
  h_S512x1024 : 0 < S512x1024.numel
  shapeCasts_S512x1024_S512x1024 : S512x1024.ShapeCasts S512x1024
  h_S1x512 : 0 < S1x512.numel
  shapeCasts_S1x512_S1x512 : S1x512.ShapeCasts S1x512
  broadcasts_S1x512_S1024x512 : S1x512.Broadcasts S1024x512
  broadcasts_S1024x1_S1024x512 : S1024x1.Broadcasts S1024x512
  reduces_S1024x512_S1024 : S1024x512.Reduces [1] S1024
  shapeCasts_S1024_S1024x1 : S1024.ShapeCasts S1024x1
  dot_S1024x1024_S512x1024_S1024x512_1_1_0_0_n_n_wf : DotDims.WF S1024x1024 S512x1024 S1024x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x1024.size a ≤ S8192x1024.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .i32 = 32 ∨ (Rect.block (s := S4096x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_call0_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v40) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v42) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v44) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v45) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S512x8192 : Shape := ⟨2, ![512, 8192]⟩
abbrev S4096x8192 : Shape := ⟨2, ![4096, 8192]⟩
abbrev S1x8192 : Shape := ⟨2, ![1, 8192]⟩
abbrev S4096x2 : Shape := ⟨2, ![4096, 2]⟩

abbrev nBuf : Space → Nat
  | .hbm => 135
  | .vmem => 0
  | .smem => 0
  | _ => 0

abbrev hbmTy0_0 (i : Nat) : BufTy := match i % 128 with
  | 0 => ⟨S4096x512, .f32⟩
  | 1 => ⟨S4096, .i32⟩
  | 2 => ⟨S4096, .i32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | 9 => ⟨S8192x512, .f32⟩
  | 10 => ⟨S8192x512, .i1⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S_, .f32⟩
  | 22 => ⟨S8192, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S4096x512, .f32⟩
  | 34 => ⟨S_, .f32⟩
  | 35 => ⟨S4096, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S512x8192, .f32⟩
  | 48 => ⟨S4096x8192, .f32⟩
  | 49 => ⟨S8192x512, .f32⟩
  | 50 => ⟨S512x8192, .f32⟩
  | 51 => ⟨S4096x8192, .f32⟩
  | 52 => ⟨S_, .f32⟩
  | 53 => ⟨S4096x8192, .f32⟩
  | 54 => ⟨S4096x8192, .f32⟩
  | 55 => ⟨S4096x8192, .f32⟩
  | 56 => ⟨S8192x512, .f32⟩
  | 57 => ⟨S8192x512, .f32⟩
  | 58 => ⟨S_, .f32⟩
  | 59 => ⟨S8192, .f32⟩
  | 60 => ⟨S1x8192, .f32⟩
  | 61 => ⟨S4096x8192, .f32⟩
  | 62 => ⟨S4096x8192, .f32⟩
  | 63 => ⟨S4096x8192, .f32⟩
  | 64 => ⟨S_, .f32⟩
  | 65 => ⟨S4096, .f32⟩
  | 66 => ⟨S_, .f32⟩
  | 67 => ⟨S4096, .f32⟩
  | 68 => ⟨S4096, .f32⟩
  | 69 => ⟨S4096x1, .f32⟩
  | 70 => ⟨S4096x8192, .f32⟩
  | 71 => ⟨S4096x8192, .f32⟩
  | 72 => ⟨S4096x8192, .f32⟩
  | 73 => ⟨S_, .f32⟩
  | 74 => ⟨S4096, .f32⟩
  | 75 => ⟨S4096x1, .f32⟩
  | 76 => ⟨S4096x1, .f32⟩
  | 77 => ⟨S4096x8192, .f32⟩
  | 78 => ⟨S4096x8192, .f32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S4096x1, .i32⟩
  | 96 => ⟨S4096x2, .i32⟩
  | 97 => ⟨S4096, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S8192x512, .f32⟩
  | 105 => ⟨S8192x512, .f32⟩
  | 106 => ⟨S8192x512, .f32⟩
  | 107 => ⟨S_, .f32⟩
  | 108 => ⟨S8192, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192, .f32⟩
  | _ => ⟨S4096x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_call2_v2 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call3_cst : Ref sig .tc := ⟨.hbm, 64, rfl⟩
abbrev main_call3_v0 : Ref sig .tc := ⟨.hbm, 65, rfl⟩
abbrev main_call3_cst_0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_cst_1 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_v32 : Ref sig .tc := ⟨.hbm, 78, rfl⟩
abbrev main_v33 : Ref sig .tc := ⟨.hbm, 79, rfl⟩
abbrev main_c : Ref sig .tc := ⟨.hbm, 80, rfl⟩
abbrev main_v34 : Ref sig .tc := ⟨.hbm, 81, rfl⟩
abbrev main_v35 : Ref sig .tc := ⟨.hbm, 82, rfl⟩
abbrev main_c_5 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_c_6 : Ref sig .tc := ⟨.hbm, 87, rfl⟩
abbrev main_v39 : Ref sig .tc := ⟨.hbm, 88, rfl⟩
abbrev main_v40 : Ref sig .tc := ⟨.hbm, 89, rfl⟩
abbrev main_c_7 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_8 : Ref sig .tc := ⟨.hbm, 98, rfl⟩
abbrev main_v48 : Ref sig .tc := ⟨.hbm, 99, rfl⟩
abbrev main_cst_9 : Ref sig .tc := ⟨.hbm, 100, rfl⟩
abbrev main_v49 : Ref sig .tc := ⟨.hbm, 101, rfl⟩
abbrev main_v50 : Ref sig .tc := ⟨.hbm, 102, rfl⟩
abbrev main_cst_10 : Ref sig .tc := ⟨.hbm, 103, rfl⟩
abbrev main_v51 : Ref sig .tc := ⟨.hbm, 104, rfl⟩
abbrev main_v52 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_call4_v2 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_12 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_13 : Ref sig .tc := ⟨.hbm, 123, rfl⟩
abbrev main_v64 : Ref sig .tc := ⟨.hbm, 124, rfl⟩
abbrev main_v65 : Ref sig .tc := ⟨.hbm, 125, rfl⟩
abbrev main_cst_14 : Ref sig .tc := ⟨.hbm, 126, rfl⟩
abbrev main_v66 : Ref sig .tc := ⟨.hbm, 127, rfl⟩
abbrev main_cst_15 : Ref sig .tc := ⟨.hbm, 128, rfl⟩
abbrev main_v67 : Ref sig .tc := ⟨.hbm, 129, rfl⟩
abbrev main_cst_16 : Ref sig .tc := ⟨.hbm, 130, rfl⟩
abbrev main_v68 : Ref sig .tc := ⟨.hbm, 131, rfl⟩
abbrev main_cst_17 : Ref sig .tc := ⟨.hbm, 132, rfl⟩
abbrev main_v69 : Ref sig .tc := ⟨.hbm, 133, rfl⟩
abbrev main_v70 : Ref sig .tc := ⟨.hbm, 134, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S8192x512_S512x8192_1_0 : S8192x512.Transposes [1, 0] S512x8192
  bcast_S_S4096x8192 : S_.BroadcastsInDim S4096x8192 (![] : Fin 0 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  concatenates_S4096x1_S4096x1_S4096x2_d1 : Shape.Concatenates [S4096x1, S4096x1] S4096x2 1
  reducesTo_S4096_S_d0 : S4096.ReducesTo [0] S_
  reducesTo_S8192_S_d0 : S8192.ReducesTo [0] S_
  dot_S4096x512_S512x8192_S4096x8192_1_0_0_1_n_n_wf : DotDims.WF S4096x512 S512x8192 S4096x8192 [1] [0] [0] [1] [] []
  gather_S4096x8192_S4096x2_S4096_n_01_n_n_01_1_11_wf : GatherDims.WF S4096x8192 S4096x2 S4096 [] [0, 1] [] [0, 1] [] 1 ![1, 1]

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def gather_S4096x8192_S4096x2_S4096_n_01_n_n_01_1_11 : GatherDims S4096x8192 S4096x2 S4096 where
  offsetDims := []
  collapsedSliceDims := [0, 1]
  operandBatchingDims := []
  startIndicesBatchingDims := []
  startIndexMap := [0, 1]
  indexVectorDim := 1
  sliceSizes := ![1, 1]
  wf := gather_S4096x8192_S4096x2_S4096_n_01_n_n_01_1_11_wf

class Facts : Prop extends Facts₀ where

variable [Facts]
-- ==== Proof.Spec.lean ====
/-
  The common vocabulary of the two sides.

  Both programs compute  ce + 0.2 · kl,  where kl depends on the proxies and the scales only and is computed by the same
  operations on both sides, and ce is the mean over the 4096 rows of the cross-entropy of the row's target class under
  the softmax of the logits  z n c = -D n c,  D n c = ∑_d Xn(n,d)² s(c,d) - 2 ∑_d Xn(n,d) (P(c,d) s(c,d)) + ∑_d P(c,d)² s(c,d)
  (a squared Mahalanobis distance, expanded). Here Xn, s, P are the normalised rows, the per-class weights and the scaled
  unit proxies: arrays of extended reals all of whose entries are real numbers when the inputs are finite. The definitions
  below read those entries as reals (`EReal.toReal`) and state the row loss  -(z n t) + log ∑_c exp (z n c)  over ℝ.
-/
import Idealize.ShloMosaic.PureOps.Ideal
import Idealize.ShloMosaic.Lib.ValueIdx

noncomputable section

open scoped BigOperators

namespace Cert.Spec

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩

/-- A real extended real is the cast of its real part. -/
theorem IsReal.coe_toReal {x : EReal} (h : IsReal x) : ((x.toReal : ℝ) : EReal) = x := by
  obtain ⟨r, rfl⟩ := h
  rfl

/-- The logit of row `n` and class `c`: minus the expanded distance. -/
def zr (Xn : (⟨2, ![4096, 512]⟩ : Shape).Idx → EReal) (s P : (⟨2, ![8192, 512]⟩ : Shape).Idx → EReal)
    (n : Fin 4096) (c : Fin 8192) : ℝ :=
  -(((∑ d : Fin 512, (Xn (ix2 n d)).toReal * (Xn (ix2 n d)).toReal * (s (ix2 c d)).toReal)
      - 2 * (∑ d : Fin 512, (Xn (ix2 n d)).toReal * ((P (ix2 c d)).toReal * (s (ix2 c d)).toReal)))
    + ∑ d : Fin 512, (P (ix2 c d)).toReal * (P (ix2 c d)).toReal * (s (ix2 c d)).toReal)

/-- The target class of row `n`, read off the integer vector (a word below 8192 is its own class). -/
def tgt (T : (⟨1, ![4096]⟩ : Shape).Idx → BitVec 32) (n : Fin 4096) : Fin 8192 :=
  ⟨(T (ix1 n)).toNat % 8192, Nat.mod_lt _ (by norm_num)⟩

/-- The cross-entropy of row `n`: minus the target's logit plus the log-sum-exp of the row. -/
def rowLoss (Xn : (⟨2, ![4096, 512]⟩ : Shape).Idx → EReal) (s P : (⟨2, ![8192, 512]⟩ : Shape).Idx → EReal)
    (T : (⟨1, ![4096]⟩ : Shape).Idx → BitVec 32) (n : Fin 4096) : ℝ :=
  -(zr Xn s P n (tgt T n)) + Real.log (∑ c : Fin 8192, Real.exp (zr Xn s P n c))

/-- The mean cross-entropy. -/
def ce (Xn : (⟨2, ![4096, 512]⟩ : Shape).Idx → EReal) (s P : (⟨2, ![8192, 512]⟩ : Shape).Idx → EReal)
    (T : (⟨1, ![4096]⟩ : Shape).Idx → BitVec 32) : ℝ :=
  (∑ n : Fin 4096, rowLoss Xn s P T n) / 4096

end Cert.Spec

end
-- ==== Proof.PreFacts.lean ====
/-
  What the precondition says, entry by entry: every entry of the three float inputs is a real number (its absolute value is
  below +∞), and every target is a class index, a word in [0, 8192) read signed.
-/
import proofs.«412588_j19061064860142_3_alg».proof.Defs
import proofs.«412588_j19061064860142_3_alg».proof.Proof.Gen.Pre_finite_inputs
import proofs.«412588_j19061064860142_3_alg».proof.Proof.Spec
import Idealize.ShloMosaic.Lib.ReduceAll
import Idealize.ShloMosaic.Lib.StableHlo.Predicate
import Idealize.ShloMosaic.Lib.ValueIdx

noncomputable section

open scoped BigOperators

namespace Cert.PreFacts

open Idealize.ShloMosaic Idealize.ShloMosaic.ValueIdx Cert.Spec

/-- The scalar shape has one index: an all-reduction's result is read at it. -/
instance scalarIdxSubsingleton : Subsingleton Cert.Pre_finite_inputs.S_.Idx :=
  ⟨fun a b => funext fun d => d.elim0⟩

/-- The pattern 0x7F800000 (sign 0, exponent all ones, fraction 0) denotes +∞. -/
theorem inf_pattern : Ideal.ofBits .f32 0x7F800000#32 = (⊤ : EReal) := by
  simp [Ideal.ofBits, Ideal.ieee]

/-- An extended real whose absolute value max x (-x) lies strictly below +∞ is a real number: at ⊥ and at ⊤ the
    absolute value is ⊤ itself. -/
theorem isReal_of_abs_lt_inf (x : EReal)
    (h : Ideal.cmp .olt (max x (-x)) (Ideal.ofBits .f32 0x7F800000#32) = 1#1) : IsReal x := by
  rw [inf_pattern] at h
  have hlt : max x (-x) < ⊤ := by
    simpa [Ideal.cmp, StableHlo.Predicate.ofBool_eq_one_iff] using h
  induction x using EReal.rec with
  | bot => exact absurd hlt (by simp)
  | coe r => exact ⟨r, rfl⟩
  | top => exact absurd hlt (by simp)

/-- A 32-bit word that is ≥ 0 read signed has its top bit clear: its value is below 2³¹. -/
theorem toNat_lt_of_sge_zero (w : BitVec 32) (h : IntOp.cmpi .sge w 0#32 = 1#1) : w.toNat < 2 ^ 31 := by
  unfold IntOp.cmpi at h
  rw [StableHlo.Predicate.ofBool_eq_one_iff] at h
  have h0 : (0 : Int) ≤ w.toInt := by
    simpa [BitVec.sle] using h
  have hw := w.isLt
  rw [BitVec.toInt_eq_toNat_cond] at h0
  split at h0 <;> omega

/-- A word in [0, 8192) read signed is below 8192 as a natural number. -/
theorem toNat_lt_of_range (w : BitVec 32) (h0 : IntOp.cmpi .sge w 0#32 = 1#1)
    (h1 : IntOp.cmpi .slt w 8192#32 = 1#1) : w.toNat < 8192 := by
  have hw : w.toNat < 2 ^ 31 := toNat_lt_of_sge_zero w h0
  have := (StableHlo.Predicate.slt_iff_toNat hw (by decide)).1 h1
  simpa using this

/-- The precondition, all ones, read entry by entry. -/
theorem of_pre (x0 : FVec Ideal Cert.Pre_finite_inputs.S4096x512 .f32) (x1 x2 : IVec Cert.Pre_finite_inputs.S4096 32)
    (x3 x4 : FVec Ideal Cert.Pre_finite_inputs.S8192x512 .f32)
    (h : Cert.Pre_finite_inputs.fn (F := Ideal) x0 x1 x2 x3 x4 = fun _ => 1#1) :
    (∀ i, IsReal (x0 i)) ∧ (∀ i, IsReal (x3 i)) ∧ (∀ i, IsReal (x4 i))
      ∧ (∀ n : Fin 4096, (x2 (ix1 n)).toNat < 8192) := by
  -- the function's one value, as the conjunction of its five all-reductions
  have e := congrFun h ix0
  unfold Cert.Pre_finite_inputs.fn Cert.Pre_finite_inputs.fn_part1 at e
  simp only [andi, IntOp.andi_eq_one] at e
  obtain ⟨⟨⟨⟨e0, e3⟩, e4⟩, eg⟩, el⟩ := e
  -- each all-reduction that is 1 had a 1 at every entry
  have a0 := Host.reduce_andi_all _ _ _ _ _ e0
  have a3 := Host.reduce_andi_all _ _ _ _ _ e3
  have a4 := Host.reduce_andi_all _ _ _ _ _ e4
  have ag := Host.reduce_andi_all _ _ _ _ _ eg
  have al := Host.reduce_andi_all _ _ _ _ _ el
  refine ⟨fun i => isReal_of_abs_lt_inf _ (a0 i), fun i => isReal_of_abs_lt_inf _ (a3 i),
    fun i => isReal_of_abs_lt_inf _ (a4 i), fun n => toNat_lt_of_range _ (ag (ix1 n)) (al (ix1 n))⟩

end Cert.PreFacts

end
-- ==== Proof.RealPrefix.lean ====
/-
  The three arrays the logits are made of have real entries when the inputs do: the per-class weights
  s = softplus(σ)² (positive reals), the scaled unit proxies P = 3 · p / max(‖p‖, ε) and the scaled unit rows
  Xn = 3 · x / max(‖x‖, ε) (ε > 0, so the divisor is a nonzero real).
-/
import proofs.«412588_j19061064860142_3_alg».proof.Proof.RefRead
import proofs.«412588_j19061064860142_3_alg».proof.Proof.Spec
import Idealize.ShloMosaic.PureOps.Ideal.Laws
import Idealize.ShloMosaic.Lib.ValueIdx

noncomputable section

open scoped BigOperators

namespace Cert.RealPrefix

open Idealize.ShloMosaic Idealize.ShloMosaic.ValueIdx Cert.Spec Cert.ReferenceIdeal Cert.ReferenceIdeal.ReadP

/-! ### The real numbers are closed, inside the extended reals, under the operations the three arrays use -/

theorem isReal_zero : IsReal (0 : EReal) := ⟨0, rfl⟩

theorem isReal_add {a b : EReal} (ha : IsReal a) (hb : IsReal b) : IsReal (a + b) := by
  obtain ⟨r, rfl⟩ := ha
  obtain ⟨t, rfl⟩ := hb
  exact ⟨r + t, (EReal.coe_add r t).symm⟩

theorem isReal_sub {a b : EReal} (ha : IsReal a) (hb : IsReal b) : IsReal (a - b) := by
  obtain ⟨r, rfl⟩ := ha
  obtain ⟨t, rfl⟩ := hb
  exact ⟨r - t, (EReal.coe_sub r t).symm⟩

theorem isReal_mul {a b : EReal} (ha : IsReal a) (hb : IsReal b) : IsReal (a * b) := by
  obtain ⟨r, rfl⟩ := ha
  obtain ⟨t, rfl⟩ := hb
  exact ⟨r * t, (EReal.coe_mul r t).symm⟩

theorem isReal_neg {a : EReal} (ha : IsReal a) : IsReal (-a) := by
  obtain ⟨r, rfl⟩ := ha
  exact ⟨-r, (EReal.coe_neg r).symm⟩

/-- The cast of reals into the extended reals is monotone, so it commutes with max. -/
theorem coe_max (r t : ℝ) : max (r : EReal) (t : EReal) = ((max r t : ℝ) : EReal) :=
  (EReal.coe_strictMono.monotone.map_max).symm

theorem isReal_max {a b : EReal} (ha : IsReal a) (hb : IsReal b) : IsReal (max a b) := by
  obtain ⟨r, rfl⟩ := ha
  obtain ⟨t, rfl⟩ := hb
  exact ⟨max r t, coe_max r t⟩

/-- The absolute value max a (-a). -/
theorem isReal_abs {a : EReal} (ha : IsReal a) : IsReal (max a (-a)) :=
  isReal_max ha (isReal_neg ha)

/-- log(1 + exp a) at a real a: exp a > 0, so 1 + exp a > 0 and the logarithm takes its real branch. -/
theorem isReal_log1p_exp {a : EReal} (ha : IsReal a) : IsReal (Ideal.log1p (Ideal.exp a)) := by
  obtain ⟨r, rfl⟩ := ha
  have h1 : (1 : EReal) + ((Real.exp r : ℝ) : EReal) = ((1 + Real.exp r : ℝ) : EReal) := by
    rw [EReal.coe_add, EReal.coe_one]
  have hpos : ¬ (1 + Real.exp r ≤ 0) := not_le.2 (by positivity)
  refine ⟨Real.log (1 + Real.exp r), ?_⟩
  rw [Ideal.exp_coe, Ideal.log1p, h1, Ideal.log_coe, if_neg hpos]

/-- A finite sum of reals is real. -/
theorem isReal_sum {ι : Type} (S : Finset ι) (f : ι → EReal) (hf : ∀ k ∈ S, IsReal (f k)) : IsReal (∑ k ∈ S, f k) :=
  Finset.sum_induction f IsReal (fun _ _ ha hb => isReal_add ha hb) isReal_zero hf

/-- A real that is not negative. -/
def IsNonneg (x : EReal) : Prop := ∃ r : ℝ, 0 ≤ r ∧ x = (r : EReal)

theorem IsNonneg.isReal {x : EReal} (h : IsNonneg x) : IsReal x := by
  obtain ⟨r, _, rfl⟩ := h
  exact ⟨r, rfl⟩

theorem isNonneg_zero : IsNonneg (0 : EReal) := ⟨0, le_refl _, rfl⟩

theorem isNonneg_add {a b : EReal} (ha : IsNonneg a) (hb : IsNonneg b) : IsNonneg (a + b) := by
  obtain ⟨r, hr, rfl⟩ := ha
  obtain ⟨t, ht, rfl⟩ := hb
  exact ⟨r + t, add_nonneg hr ht, (EReal.coe_add r t).symm⟩

/-- The square of a real. -/
theorem isNonneg_mul_self {a : EReal} (ha : IsReal a) : IsNonneg (a * a) := by
  obtain ⟨r, rfl⟩ := ha
  exact ⟨r * r, mul_self_nonneg r, (EReal.coe_mul r r).symm⟩

theorem isNonneg_sum {ι : Type} (S : Finset ι) (f : ι → EReal) (hf : ∀ k ∈ S, IsNonneg (f k)) : IsNonneg (∑ k ∈ S, f k) :=
  Finset.sum_induction f IsNonneg (fun _ _ ha hb => isNonneg_add ha hb) isNonneg_zero hf

/-- The square root of a real that is not negative takes its real branch. -/
theorem isNonneg_sqrt {a : EReal} (ha : IsNonneg a) : IsNonneg (Ideal.sqrt a) := by
  obtain ⟨r, hr, rfl⟩ := ha
  refine ⟨Real.sqrt r, Real.sqrt_nonneg r, ?_⟩
  rw [Ideal.sqrt_coe, if_neg (not_lt.2 hr)]

/-- A quotient by max(b, e) with b real and e a positive real: the divisor is a real ≥ e > 0, so the quotient is the
    product with the real reciprocal. -/
theorem isReal_div_max {x b e : EReal} (hx : IsReal x) (hb : IsReal b) (he : ∃ t : ℝ, 0 < t ∧ e = (t : EReal)) :
    IsReal (Ideal.div x (max b e)) := by
  obtain ⟨r, rfl⟩ := hb
  obtain ⟨t, ht, rfl⟩ := he
  have hne : max r t ≠ 0 := ne_of_gt (lt_of_lt_of_le ht (le_max_right r t))
  rw [coe_max, Ideal.div_coe hne]
  exact isReal_mul hx ⟨_, rfl⟩

/-! ### The literals -/

/-- The pattern 0x40400000 (exponent 128, fraction 2²²) denotes 3. -/
theorem three_lit : Ideal.ofBits .f32 0x40400000#32 = ((3 : ℝ) : EReal) := by
  simp [Ideal.ofBits, Ideal.ieee, -EReal.coe_mul]; norm_num

/-- The pattern 0x2B8CBCCC (sign 0, exponent 87, fraction 834764) denotes the positive real 9223372 · 2⁻⁶³. -/
theorem eps_lit : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

/-! ### The three arrays, entry by entry -/

/-- A comparison "a ≠ a" is false at every extended real, so a select on it takes its second branch. -/
theorem select_une_self {α : Type} (a : EReal) (u v : α) : Scalar.select (Ideal.cmp .une a a) u v = v := by
  simp [Ideal.cmp, Scalar.select]

/-- The softplus  max(x, 0) + log(1 + exp(-|x - 0|))  of a real is real. -/
theorem softplus_real (x4 : (⟨S8192x512, .f32⟩ : BufTy).Contents (Elt Ideal)) (h : ∀ i, IsReal (x4 i)) :
    ∀ i, IsReal (val_main_v0 (F := Ideal) x4 i) := by
  intro i
  have h0 : ∀ j, val_main_call0_cst (F := Ideal) j = (0 : EReal) := fun _ => Ideal.ofBits_zero_f32
  rw [val_main_v0_apply, val_main_call0_v4_apply, Ideal.cmpf_def, select_une_self, val_main_call0_v11_apply,
    Ideal.addf_def]
  refine isReal_add ?_ ?_
  · rw [val_main_call0_v1_apply, val_main_call0_v0_apply, h0, Ideal.maximumf_def]
    exact isReal_max (h i) isReal_zero
  · rw [val_main_call0_v10_apply, val_main_call0_v9_apply, Ideal.hostUnary_log1p_def, Ideal.hostUnary_exp_def]
    refine isReal_log1p_exp ?_
    rw [val_main_call0_v8_apply, val_main_call0_v7_apply, Ideal.hostNegf_def, Ideal.negf_def, Ideal.hostAbsf_def,
      Ideal.absf_def]
    refine isReal_neg (isReal_abs ?_)
    rw [val_main_call0_v3_apply, val_main_call0_v2_apply, h0, Ideal.subf_def]
    exact isReal_sub (h i) isReal_zero

/-- The scalar form of a scaled unit vector's entry: c · (x / max(√(z + ∑ f²), e)) with z = 0, e a positive real and
    everything else real. -/
theorem unit_entry_real {ι : Type} (S : Finset ι) (f : ι → EReal) (hf : ∀ k ∈ S, IsReal (f k)) {x z e c : EReal}
    (hx : IsReal x) (hz : z = 0) (he : ∃ t : ℝ, 0 < t ∧ e = (t : EReal)) (hc : IsReal c) :
    IsReal (c * Ideal.div x (max (Ideal.sqrt (z + ∑ k ∈ S, f k * f k)) e)) := by
  have hsum : IsNonneg (z + ∑ k ∈ S, f k * f k) := by
    rw [hz]
    exact isNonneg_add isNonneg_zero (isNonneg_sum S _ fun k hk => isNonneg_mul_self (hf k hk))
  exact isReal_mul hc (isReal_div_max hx (isNonneg_sqrt hsum).isReal he)

/-- The per-class weights are real. -/
theorem s_real (x4 : (⟨S8192x512, .f32⟩ : BufTy).Contents (Elt Ideal)) (h : ∀ i, IsReal (x4 i)) :
    ∀ i, IsReal (val_main_v1 (F := Ideal) x4 i) := by
  intro i
  rw [val_main_v1_apply, Ideal.mulf_def]
  exact isReal_mul (softplus_real x4 h i) (softplus_real x4 h i)

/-- The scaled unit proxies are real. -/
theorem p_real (x3 : (⟨S8192x512, .f32⟩ : BufTy).Contents (Elt Ideal)) (h : ∀ i, IsReal (x3 i)) :
    ∀ i, IsReal (val_main_v8 (F := Ideal) x3 i) := by
  intro i
  rw [val_main_v8_apply, val_main_v7_apply, val_main_cst_0_apply, val_main_v6_apply, val_main_v5_apply,
    val_main_v4_apply, val_main_v3_apply, val_main_cst_apply, val_main_v2_apply, val_main_call1_v2_apply,
    val_main_call1_v1_apply, val_main_call1_cst_apply]
  simp only [val_main_call1_v0_apply, Ideal.mulf_def, Ideal.hostDivf_def, Ideal.maximumf_def,
    Ideal.hostUnary_sqrt_def, Ideal.ofBits_def]
  exact unit_entry_real Finset.univ (fun k => x3 (idx_main_call1_v1 (idx_main_call1_v2 (idx_main_v5 i)) k))
    (fun k _ => h _) (h i) Ideal.ofBits_zero_f32 eps_lit ⟨3, three_lit⟩

/-- The scaled unit rows are real. -/
theorem xn_real (x0 : (⟨S4096x512, .f32⟩ : BufTy).Contents (Elt Ideal)) (h : ∀ i, IsReal (x0 i)) :
    ∀ i, IsReal (val_main_v15 (F := Ideal) x0 i) := by
  intro i
  rw [val_main_v15_apply, val_main_v14_apply, val_main_cst_2_apply, val_main_v13_apply, val_main_v12_apply,
    val_main_v11_apply, val_main_v10_apply, val_main_cst_1_apply, val_main_v9_apply, val_main_call2_v2_apply,
    val_main_call2_v1_apply, val_main_call2_cst_apply]
  simp only [val_main_call2_v0_apply, Ideal.mulf_def, Ideal.hostDivf_def, Ideal.maximumf_def,
    Ideal.hostUnary_sqrt_def, Ideal.ofBits_def]
  exact unit_entry_real Finset.univ (fun k => x0 (idx_main_call2_v1 (idx_main_call2_v2 (idx_main_v12 i)) k))
    (fun k _ => h _) (h i) Ideal.ofBits_zero_f32 eps_lit ⟨3, three_lit⟩

end Cert.RealPrefix

end
-- ==== Proof.OnlineLse.lean ====
/-
  The algebra of a streaming log-sum-exp over the extended reals.

  A row of real logits `z c` is visited chunk by chunk. Three running quantities are carried: `m` (a running
  upper value, started at `⊥`), `l` (the sum of `exp (z c - m)` over the columns seen so far) and `d` (minus the
  logit at the target column `t`, once its chunk has been seen). The law that makes the stream agree with the two-pass
  `log_softmax` is the shift invariance `M + log (∑ exp (z c - M)) = log (∑ exp (z c))` for EVERY real `M`: the running
  value `m` need only be a real number, never the maximum.
-/
import Idealize.ShloMosaic.PureOps.Ideal

noncomputable section

open scoped BigOperators

namespace Cert.OnlineLse

open Idealize.ShloMosaic

/-- The log-sum-exp of a finite family of reals. -/
def lse {ι : Type} [Fintype ι] (z : ι → ℝ) : ℝ := Real.log (∑ c, Real.exp (z c))

/-- A real sum, cast, is the sum of the casts. -/
theorem coe_sum {ι : Type} (S : Finset ι) (f : ι → ℝ) : ((∑ i ∈ S, f i : ℝ) : EReal) = ∑ i ∈ S, (f i : EReal) := by
  classical
  induction S using Finset.induction_on with
  | empty => rw [Finset.sum_empty, Finset.sum_empty, EReal.coe_zero]
  | insert a s ha ih => rw [Finset.sum_insert ha, Finset.sum_insert ha, EReal.coe_add, ih]

/-- The maximum of two casts is the cast of the maximum. -/
private theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A fold of `max` from `⊥` over a nonempty finite family of real numbers is a real number. -/
theorem fold_max_real {ι : Type} (S : Finset ι) (hS : S.Nonempty) (f : ι → EReal) (hf : ∀ i ∈ S, ∃ r : ℝ, f i = (r : EReal)) :
    ∃ r : ℝ, S.fold max ⊥ f = (r : EReal) := by
  classical
  induction S using Finset.induction_on with
  | empty => exact absurd hS Finset.not_nonempty_empty
  | insert a s ha ih =>
    rw [Finset.fold_insert ha]
    obtain ⟨ra, hra⟩ := hf a (Finset.mem_insert_self a s)
    rcases s.eq_empty_or_nonempty with hs | hs
    · subst hs
      rw [Finset.fold_empty]
      exact ⟨ra, by rw [hra]; exact max_bot_right _⟩
    · obtain ⟨r, hr⟩ := ih hs (fun i hi => hf i (Finset.mem_insert_of_mem hi))
      exact ⟨max ra r, by rw [hra, hr, coe_max']⟩

/-- Shift invariance of log-sum-exp. -/
theorem lse_shift {ι : Type} [Fintype ι] [Nonempty ι] (z : ι → ℝ) (M : ℝ) :
    M + Real.log (∑ c, Real.exp (z c - M)) = lse z := by
  unfold lse
  have hpos : 0 < ∑ c, Real.exp (z c) :=
    Finset.sum_pos (fun c _ => Real.exp_pos _) Finset.univ_nonempty
  -- exp (z c - M) = exp (-M) * exp (z c), so the shifted sum is exp (-M) times the plain one
  have h1 : ∑ c, Real.exp (z c - M) = Real.exp (-M) * ∑ c, Real.exp (z c) := by
    rw [Finset.mul_sum]
    refine Finset.sum_congr rfl (fun c _ => ?_)
    rw [← Real.exp_add]
    congr 1
    ring
  rw [h1, Real.log_mul (Real.exp_pos _).ne' hpos.ne', Real.log_exp]
  ring

/-- The state of the stream once the columns in `C` have been seen: either nothing has been seen and the state is the
    initial one, or `m` is a real, `l` the sum of `exp (z c - m)` over `C`, and `d` minus the target's logit if `t ∈ C`. -/
def Inv {ι : Type} [DecidableEq ι] (C : Finset ι) (z : ι → ℝ) (t : ι) (m l d : EReal) : Prop :=
  (C = ∅ ∧ m = ⊥ ∧ l = 0 ∧ d = 0) ∨
  (∃ mr : ℝ, m = (mr : EReal) ∧ l = ((∑ c ∈ C, Real.exp (z c - mr) : ℝ) : EReal)
    ∧ d = ((-(∑ c ∈ C, if c = t then z c else 0) : ℝ) : EReal))

theorem inv_init {ι : Type} [DecidableEq ι] (z : ι → ℝ) (t : ι) : Inv (∅ : Finset ι) z t ⊥ 0 0 :=
  Or.inl ⟨rfl, rfl, rfl, rfl⟩

/-- One chunk. The chunk's columns are `e j` for `j : κ` (new columns: `e` injective, none of them in `C`), its logits
    `s j = z (e j)`; the new state is what the three update formulas give. -/
theorem inv_step {ι κ : Type} [DecidableEq ι] [Fintype κ] [Nonempty κ] (C : Finset ι) (z : ι → ℝ) (t : ι) (m l d : EReal)
    (h : Inv C z t m l d) (e : κ → ι) (he : Function.Injective e) (hdisj : ∀ j, e j ∉ C)
    (s : κ → EReal) (hs : ∀ j, s j = ((z (e j) : ℝ) : EReal))
    (m' l' d' : EReal)
    (hm' : m' = max m ((Finset.univ : Finset κ).fold max ⊥ s))
    (hl' : l' = Ideal.exp (m - m') * l + ∑ j, Ideal.exp (s j - m'))
    (hd' : d' = d + (0 - ∑ j, if e j = t then s j else 0)) :
    Inv (C ∪ Finset.univ.image e) z t m' l' d' := by
  -- the chunk's own maximum is a real number
  obtain ⟨rm, hrm⟩ := fold_max_real (Finset.univ : Finset κ) Finset.univ_nonempty s
    (fun j _ => ⟨z (e j), hs j⟩)
  -- a sum over the chunk's columns is a sum over the chunk's index
  have himg : ∀ f : ι → ℝ, ∑ c ∈ Finset.univ.image e, f c = ∑ j, f (e j) := fun f =>
    Finset.sum_image (fun a _ b _ hab => he hab)
  have hdj : Disjoint C (Finset.univ.image e) := by
    rw [Finset.disjoint_right]
    intro c hc
    obtain ⟨j, _, rfl⟩ := Finset.mem_image.mp hc
    exact hdisj j
  -- the chunk's target term, as the cast of a real sum
  have hsd : (∑ j, (if e j = t then s j else (0 : EReal)))
      = ((∑ j, (if e j = t then z (e j) else 0) : ℝ) : EReal) := by
    rw [coe_sum]
    refine Finset.sum_congr rfl (fun j _ => ?_)
    split_ifs
    · exact hs j
    · exact EReal.coe_zero.symm
  -- the chunk's exponentials against a real shift, as the cast of a real sum
  have hse : ∀ r : ℝ, (∑ j, Ideal.exp (s j - (r : EReal)))
      = ((∑ j, Real.exp (z (e j) - r) : ℝ) : EReal) := by
    intro r
    rw [coe_sum]
    refine Finset.sum_congr rfl (fun j _ => ?_)
    rw [hs j, ← EReal.coe_sub, Ideal.exp_coe]
  rcases h with ⟨hC, hm, hl, hd⟩ | ⟨mr, hm, hl, hd⟩
  · -- nothing seen yet: the new running value is the chunk's maximum
    subst hC
    have hm'r : m' = (rm : EReal) := by
      rw [hm', hm, hrm]
      exact max_bot_left _
    refine Or.inr ⟨rm, hm'r, ?_, ?_⟩
    · rw [hl', hm, hl, hm'r, EReal.bot_sub, Ideal.exp_bot, mul_zero, zero_add, hse,
        Finset.empty_union, himg]
    · rw [hd', hd, zero_add, hsd, ← EReal.coe_zero, ← EReal.coe_sub, zero_sub,
        Finset.empty_union, himg]
  · -- the running value is a real: so is the new one, and everything is a cast
    have hm'r : m' = ((max mr rm : ℝ) : EReal) := by
      rw [hm', hm, hrm, coe_max']
    refine Or.inr ⟨max mr rm, hm'r, ?_, ?_⟩
    · rw [hl', hm, hl, hm'r, ← EReal.coe_sub, Ideal.exp_coe, ← EReal.coe_mul, hse,
        ← EReal.coe_add, EReal.coe_eq_coe_iff, Finset.sum_union hdj, himg, Finset.mul_sum]
      congr 1
      refine Finset.sum_congr rfl (fun c _ => ?_)
      rw [← Real.exp_add]
      congr 1
      ring
    · rw [hd', hd, hsd, ← EReal.coe_zero, ← EReal.coe_sub, ← EReal.coe_add,
        EReal.coe_eq_coe_iff, Finset.sum_union hdj, himg]
      ring

/-- At the end of the stream: `d + m + log l` is minus the target's logit plus the log-sum-exp of the row. -/
theorem inv_final {ι : Type} [Fintype ι] [DecidableEq ι] [Nonempty ι] (z : ι → ℝ) (t : ι) (m l d : EReal)
    (h : Inv (Finset.univ : Finset ι) z t m l d) :
    (d + m) + Ideal.log l = ((-(z t) + lse z : ℝ) : EReal) := by
  rcases h with ⟨hC, _, _, _⟩ | ⟨mr, hm, hl, hd⟩
  · exact absurd hC Finset.univ_nonempty.ne_empty
  · -- a nonempty sum of exponentials is positive, so its logarithm is the real one
    have hpos : 0 < ∑ c, Real.exp (z c - mr) :=
      Finset.sum_pos (fun c _ => Real.exp_pos _) Finset.univ_nonempty
    have ht : (∑ c, if c = t then z c else 0) = z t := by
      rw [Finset.sum_ite_eq', if_pos (Finset.mem_univ t)]
    rw [hm, hl, hd, ht, Ideal.log_coe, if_neg (not_le.mpr hpos), ← EReal.coe_add,
      ← EReal.coe_add, EReal.coe_eq_coe_iff, ← lse_shift z mr]
    ring

/-- The two-pass form: with ANY real shift `M`, `(z t - M) - log (∑ exp (z c - M))` is `z t` minus the log-sum-exp. -/
theorem log_softmax_real {ι : Type} [Fintype ι] [Nonempty ι] (z : ι → ℝ) (t : ι) (M : ℝ) (S : EReal)
    (hS : S = ∑ c, Ideal.exp (((z c : ℝ) : EReal) - (M : EReal))) :
    (((z t : ℝ) : EReal) - (M : EReal)) - Ideal.log S = ((z t - lse z : ℝ) : EReal) := by
  have hpos : 0 < ∑ c, Real.exp (z c - M) :=
    Finset.sum_pos (fun c _ => Real.exp_pos _) Finset.univ_nonempty
  have hS' : S = ((∑ c, Real.exp (z c - M) : ℝ) : EReal) := by
    rw [hS, coe_sum]
    refine Finset.sum_congr rfl (fun c _ => ?_)
    rw [← EReal.coe_sub, Ideal.exp_coe]
  rw [hS', Ideal.log_coe, if_neg (not_le.mpr hpos), ← EReal.coe_sub, ← EReal.coe_sub,
    EReal.coe_eq_coe_iff, ← lse_shift z M]
  ring

end Cert.OnlineLse

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.RefLogits.lean ====
/-
  The reference's logits. Entry (n, c) of the negated distance matrix is the cast of the real logit z n c, when the three
  arrays it is made of have real entries: two matrix products against transposed operands read as sums over the 512
  coordinates, the per-class term broadcast down the rows, and casts pushed out of the sums.
-/
import proofs.«412588_j19061064860142_3_alg».proof.Proof.RefRead
import proofs.«412588_j19061064860142_3_alg».proof.Proof.Spec
import proofs.«412588_j19061064860142_3_alg».proof.Proof.OnlineLse
import proofs.«412588_j19061064860142_3_alg».proof.Proof.LibPlainDot
import Idealize.ShloMosaic.PureOps.Ideal.Laws
import Idealize.ShloMosaic.Lib.ValueIdx
import Idealize.ShloMosaic.Lib.Pipeline.Value

noncomputable section

open scoped BigOperators

namespace Cert.RefLogits

open Idealize.ShloMosaic Idealize.ShloMosaic.ValueIdx Cert.Spec Cert.ReferenceIdeal Cert.ReferenceIdeal.ReadP

/-! ## Products of real extended reals -/

/-- The product of two real extended reals is the cast of the product of their real parts. -/
theorem mul_real {x y : EReal} (hx : IsReal x) (hy : IsReal y) :
    x * y = ((x.toReal * y.toReal : ℝ) : EReal) := by
  obtain ⟨a, rfl⟩ := hx
  obtain ⟨b, rfl⟩ := hy
  rw [EReal.toReal_coe, EReal.toReal_coe, EReal.coe_mul]

/-- A product of two real extended reals is real. -/
theorem isReal_mul {x y : EReal} (hx : IsReal x) (hy : IsReal y) : IsReal (x * y) :=
  ⟨_, mul_real hx hy⟩

/-- Three factors, associated to the left. -/
theorem mul_mul_real {x y z : EReal} (hx : IsReal x) (hy : IsReal y) (hz : IsReal z) :
    x * y * z = ((x.toReal * y.toReal * z.toReal : ℝ) : EReal) := by
  obtain ⟨a, rfl⟩ := hx
  obtain ⟨b, rfl⟩ := hy
  obtain ⟨c, rfl⟩ := hz
  rw [EReal.toReal_coe, EReal.toReal_coe, EReal.toReal_coe, EReal.coe_mul, EReal.coe_mul]

/-- Three factors, associated to the right. -/
theorem mul_mul_real' {x y z : EReal} (hx : IsReal x) (hy : IsReal y) (hz : IsReal z) :
    x * (y * z) = ((x.toReal * (y.toReal * z.toReal) : ℝ) : EReal) := by
  obtain ⟨a, rfl⟩ := hx
  obtain ⟨b, rfl⟩ := hy
  obtain ⟨c, rfl⟩ := hz
  rw [EReal.toReal_coe, EReal.toReal_coe, EReal.toReal_coe, EReal.coe_mul, EReal.coe_mul]

/-- The word 0x40000000 is the number two. -/
theorem two_bits : Ideal.ofBits .f32 0x40000000#32 = ((2 : ℝ) : EReal) := by
  simp [Ideal.ofBits, Ideal.ieee, -EReal.coe_mul]; norm_num

section
variable (x0 : (⟨S4096x512, .f32⟩ : BufTy).Contents (Elt Ideal)) (x3 x4 : (⟨S8192x512, .f32⟩ : BufTy).Contents (Elt Ideal))

/-! ## The per-class term -/

/-- The per-class term at class c: the sum over the coordinates of P² · s, a real number. -/
theorem pps_apply (hs : ∀ i, IsReal (val_main_v1 (F := Ideal) x4 i)) (hP : ∀ i, IsReal (val_main_v8 (F := Ideal) x3 i))
    (c : Fin 8192) :
    val_main_v27 (F := Ideal) x3 x4 (ix1 c)
      = ((∑ d : Fin 512, (val_main_v8 (F := Ideal) x3 (ix2 c d)).toReal * (val_main_v8 (F := Ideal) x3 (ix2 c d)).toReal
            * (val_main_v1 (F := Ideal) x4 (ix2 c d)).toReal : ℝ) : EReal) := by
  rw [val_main_v27_apply, val_main_cst_4_apply, Ideal.ofBits_def, Ideal.ofBits_zero_f32, zero_add, Cert.OnlineLse.coe_sum]
  refine Finset.sum_congr rfl fun d _ => ?_
  have hi : idx_main_v27 (ix1 c) d = ix2 c d :=
    funext fun a => Fin.ext (by match a with | ⟨0, _⟩ => rfl | ⟨1, _⟩ => rfl)
  rw [hi, val_main_v26_apply, val_main_v25_apply, Ideal.mulf_def, Ideal.mulf_def]
  exact mul_mul_real (hP _) (hP _) (hs _)

/-- The per-class term broadcast down the rows reads the class's entry. -/
theorem bcast_apply (n : Fin 4096) (c : Fin 8192) :
    val_main_v29 (F := Ideal) x3 x4 (ix2 n c) = val_main_v27 (F := Ideal) x3 x4 (ix1 c) := by
  rw [val_main_v29_apply, val_main_v28_apply]
  exact congrArg _ (funext fun a => Fin.ext (by match a with | ⟨0, _⟩ => rfl))

/-! ## The two matrix products -/

/-- The product of the squared rows with the transposed weights at (n, c). -/
theorem xxs_apply (hXn : ∀ i, IsReal (val_main_v15 (F := Ideal) x0 i)) (hs : ∀ i, IsReal (val_main_v1 (F := Ideal) x4 i))
    (n : Fin 4096) (c : Fin 8192) :
    val_main_v18 (F := Ideal) x0 x4 (ix2 n c)
      = ((∑ d : Fin 512, (val_main_v15 (F := Ideal) x0 (ix2 n d)).toReal * (val_main_v15 (F := Ideal) x0 (ix2 n d)).toReal
            * (val_main_v1 (F := Ideal) x4 (ix2 c d)).toReal : ℝ) : EReal) := by
  rw [val_main_v18_apply, Cert.OnlineLse.coe_sum]
  refine Finset.sum_congr rfl fun d _ => ?_
  have hl : lidx_main_v18 (ix2 n c) d = ix2 n d :=
    funext fun a => Fin.ext (by match a with | ⟨0, _⟩ => rfl | ⟨1, _⟩ => rfl)
  have hr : idx_main_v17 (ridx_main_v18 (ix2 n c) d) = ix2 c d :=
    funext fun a => Fin.ext (by match a with | ⟨0, _⟩ => rfl | ⟨1, _⟩ => rfl)
  rw [val_main_v17_apply, hl, hr, val_main_v16_apply, Ideal.mulf_def]
  exact mul_mul_real (hXn _) (hXn _) (hs _)

/-- The product of the rows with the transposed weighted proxies at (n, c). -/
theorem xps_apply (hXn : ∀ i, IsReal (val_main_v15 (F := Ideal) x0 i)) (hs : ∀ i, IsReal (val_main_v1 (F := Ideal) x4 i))
    (hP : ∀ i, IsReal (val_main_v8 (F := Ideal) x3 i)) (n : Fin 4096) (c : Fin 8192) :
    val_main_v21 (F := Ideal) x0 x3 x4 (ix2 n c)
      = ((∑ d : Fin 512, (val_main_v15 (F := Ideal) x0 (ix2 n d)).toReal
            * ((val_main_v8 (F := Ideal) x3 (ix2 c d)).toReal * (val_main_v1 (F := Ideal) x4 (ix2 c d)).toReal) : ℝ) : EReal) := by
  rw [val_main_v21_apply, Cert.OnlineLse.coe_sum]
  refine Finset.sum_congr rfl fun d _ => ?_
  have hl : lidx_main_v21 (ix2 n c) d = ix2 n d :=
    funext fun a => Fin.ext (by match a with | ⟨0, _⟩ => rfl | ⟨1, _⟩ => rfl)
  have hr : idx_main_v20 (ridx_main_v21 (ix2 n c) d) = ix2 c d :=
    funext fun a => Fin.ext (by match a with | ⟨0, _⟩ => rfl | ⟨1, _⟩ => rfl)
  rw [val_main_v20_apply, hl, hr, val_main_v19_apply, Ideal.mulf_def]
  exact mul_mul_real' (hXn _) (hP _) (hs _)

end

/-- The reference's negated distance at (n, c) is the real logit. -/
theorem ref_logits (x0 : (⟨S4096x512, .f32⟩ : BufTy).Contents (Elt Ideal)) (x3 x4 : (⟨S8192x512, .f32⟩ : BufTy).Contents (Elt Ideal))
    (hXn : ∀ i, IsReal (val_main_v15 (F := Ideal) x0 i)) (hs : ∀ i, IsReal (val_main_v1 (F := Ideal) x4 i))
    (hP : ∀ i, IsReal (val_main_v8 (F := Ideal) x3 i)) (n : Fin 4096) (c : Fin 8192) :
    val_main_v31 (F := Ideal) x0 x3 x4 (ix2 n c)
      = ((zr (val_main_v15 (F := Ideal) x0) (val_main_v1 (F := Ideal) x4) (val_main_v8 (F := Ideal) x3) n c : ℝ) : EReal) := by
  rw [val_main_v31_apply, val_main_v30_apply, val_main_v24_apply, val_main_v23_apply, val_main_v22_apply,
    val_main_cst_3_apply, Ideal.ofBits_def, two_bits, bcast_apply, pps_apply x3 x4 hs hP, xxs_apply x0 x4 hXn hs,
    xps_apply x0 x3 x4 hXn hs hP, Ideal.hostNegf_def, Ideal.negf_def, Ideal.addf_def, Ideal.subf_def, Ideal.mulf_def,
    ← EReal.coe_mul, ← EReal.coe_sub, ← EReal.coe_add, ← EReal.coe_neg]
  rfl

end Cert.RefLogits

end
-- ==== Proof.RefSoftmax.lean ====
/-
  The reference's log_softmax, at one entry. With real logits z n c, the row maximum (a fold of max from -∞ over real
  numbers) is some real number M, and (z n c - M) - log ∑ exp (z n c' - M) is z n c minus the row's log-sum-exp, whatever
  M is (shift invariance).
-/
import proofs.«412588_j19061064860142_3_alg».proof.Proof.RefRead
import proofs.«412588_j19061064860142_3_alg».proof.Proof.Spec
import proofs.«412588_j19061064860142_3_alg».proof.Proof.OnlineLse
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.RefSoftmax

open Idealize.ShloMosaic Idealize.ShloMosaic.ValueIdx Cert.Spec Cert.ReferenceIdeal Cert.ReferenceIdeal.ReadP

/-- The f32 word of -∞ is the bottom element. -/
theorem ofBits_negInf : Ideal.ofBits .f32 0xFF800000#32 = (⊥ : EReal) := by
  simp [Ideal.ofBits, Ideal.ieee]

/-- The reduced index of row `n` with column `k` put back on the dropped axis is (n, k). -/
theorem lift_row (h : S4096x8192.Reduces [1] S4096) (n : Fin 4096) (k : Fin (S4096x8192.size 1)) :
    h.lift (ix1 n) k = ix2 n (⟨k.val, k.isLt⟩ : Fin 8192) := by
  funext c
  apply Fin.ext
  fin_cases c <;> rfl

/-- The row maximum the reference subtracts (the maximum of -∞ and the fold of max from -∞ over the row) is a real
    number, because every logit of the row is one and the row is not empty. -/
theorem row_max (x0 : (⟨S4096x512, .f32⟩ : BufTy).Contents (Elt Ideal)) (x3 x4 : (⟨S8192x512, .f32⟩ : BufTy).Contents (Elt Ideal))
    (hz : ∀ (n : Fin 4096) (c : Fin 8192), val_main_v31 (F := Ideal) x0 x3 x4 (ix2 n c) = ((zr (val_main_v15 (F := Ideal) x0) (val_main_v1 (F := Ideal) x4) (val_main_v8 (F := Ideal) x3) n c : ℝ) : EReal))
    (n : Fin 4096) :
    ∃ M : ℝ, val_main_call3_v2 (F := Ideal) x0 x3 x4 (ix1 n) = ((M : ℝ) : EReal) := by
  have hred : S4096x8192.Reduces [1] S4096 := by decide
  obtain ⟨M, hM⟩ := Cert.OnlineLse.fold_max_real (Finset.univ : Finset (Fin (S4096x8192.size 1)))
    ⟨⟨0, by decide⟩, Finset.mem_univ _⟩
    (fun k => val_main_v31 (F := Ideal) x0 x3 x4 (ix2 n (⟨k.val, k.isLt⟩ : Fin 8192)))
    (fun k _ => ⟨_, hz n ⟨k.val, k.isLt⟩⟩)
  refine ⟨M, ?_⟩
  rw [val_main_call3_v2_apply, val_main_call3_v1_apply, val_main_call3_cst_0_apply]
  unfold val_main_call3_v0
  rw [Host.reduce_eq_fold_single FloatOps.maximumf _ _ _ hred, val_main_call3_cst_apply]
  have hf : (val_main_v31 (F := Ideal) x0 x3 x4 ∘ hred.lift (ix1 n))
      = fun k => val_main_v31 (F := Ideal) x0 x3 x4 (ix2 n (⟨k.val, k.isLt⟩ : Fin 8192)) :=
    funext fun k => congrArg (val_main_v31 (F := Ideal) x0 x3 x4) (lift_row hred n k)
  rw [hf]
  show max (Ideal.ofBits .f32 0xFF800000#32) (Finset.fold max (Ideal.ofBits .f32 0xFF800000#32) _ _) = _
  rw [ofBits_negInf, hM]
  exact max_eq_right bot_le

/-- The reference's log_softmax at (n, c) is the logit minus the row's log-sum-exp. -/
theorem ref_log_softmax (x0 : (⟨S4096x512, .f32⟩ : BufTy).Contents (Elt Ideal)) (x3 x4 : (⟨S8192x512, .f32⟩ : BufTy).Contents (Elt Ideal))
    (hz : ∀ (n : Fin 4096) (c : Fin 8192), val_main_v31 (F := Ideal) x0 x3 x4 (ix2 n c) = ((zr (val_main_v15 (F := Ideal) x0) (val_main_v1 (F := Ideal) x4) (val_main_v8 (F := Ideal) x3) n c : ℝ) : EReal))
    (n : Fin 4096) (c : Fin 8192) :
    val_main_v32 (F := Ideal) x0 x3 x4 (ix2 n c)
      = ((zr (val_main_v15 (F := Ideal) x0) (val_main_v1 (F := Ideal) x4) (val_main_v8 (F := Ideal) x3) n c - Real.log (∑ c' : Fin 8192, Real.exp (zr (val_main_v15 (F := Ideal) x0) (val_main_v1 (F := Ideal) x4) (val_main_v8 (F := Ideal) x3) n c')) : ℝ) : EReal) := by
  haveI : Nonempty (Fin 8192) := ⟨⟨0, by decide⟩⟩
  obtain ⟨M, hM⟩ := row_max x0 x3 x4 hz n
  -- the shifted logit: entry (n, c') of the difference is z n c' - M
  have h5 : ∀ c' : Fin 8192, val_main_call3_v5 (F := Ideal) x0 x3 x4 (ix2 n c')
      = ((zr (val_main_v15 (F := Ideal) x0) (val_main_v1 (F := Ideal) x4) (val_main_v8 (F := Ideal) x3) n c' : ℝ) : EReal) - ((M : ℝ) : EReal) := by
    intro c'
    rw [val_main_call3_v5_apply, val_main_call3_v4_apply, val_main_call3_v3_apply, Ideal.subf_def, hz n c']
    have hi : idx_main_call3_v3 (idx_main_call3_v4 (ix2 n c')) = ix1 n :=
      funext fun a => Fin.ext (by match a with | ⟨0, _⟩ => rfl)
    rw [hi, hM]
  -- the row's sum of exponentials of the shifted logits
  have h7 : val_main_call3_v7 (F := Ideal) x0 x3 x4 (ix1 n)
      = ∑ c' : Fin 8192, Ideal.exp (((zr (val_main_v15 (F := Ideal) x0) (val_main_v1 (F := Ideal) x4) (val_main_v8 (F := Ideal) x3) n c' : ℝ) : EReal) - ((M : ℝ) : EReal)) := by
    rw [val_main_call3_v7_apply, val_main_call3_cst_1_apply, Ideal.ofBits_def, Ideal.ofBits_zero_f32, zero_add]
    refine Finset.sum_congr rfl fun k _ => ?_
    rw [val_main_call3_v6_apply, Ideal.hostUnary_exp_def]
    have hi : idx_main_call3_v7 (ix1 n) k = ix2 n k :=
      funext fun a => Fin.ext (by match a with | ⟨0, _⟩ => rfl | ⟨1, _⟩ => rfl)
    rw [hi, h5 k]
  rw [val_main_v32_apply, Ideal.subf_def, val_main_call3_v10_apply, val_main_call3_v9_apply, Ideal.hostUnary_log_def,
    val_main_call3_v8_apply]
  have hi : idx_main_call3_v8 (idx_main_call3_v10 (ix2 n c)) = ix1 n :=
    funext fun a => Fin.ext (by match a with | ⟨0, _⟩ => rfl)
  rw [hi, h5 c]
  exact Cert.OnlineLse.log_softmax_real
    (zr (val_main_v15 (F := Ideal) x0) (val_main_v1 (F := Ideal) x4) (val_main_v8 (F := Ideal) x3) n) c M _ h7

end Cert.RefSoftmax

end
-- ==== Proof.RefValue.lean ====
/-
  The reference's result. The gather picks column T n of row n of the log_softmax matrix (the targets are class indices,
  so the index normalisation leaves them unchanged and the read is in range); the mean of the picked entries, negated, is
  the mean cross-entropy; the regulariser's term is added unchanged.

  The gather has both operand axes collapsed and start-indexed: entry n of its result is the operand at the pair in row n
  of the [4096 × 2] index array, each component read signed and clamped into its axis. The index array is the
  concatenation of two columns: the row numbers and the targets, each passed through the wrap-around of negative
  indices (select (w < 0) (w + size) w), which is the identity on a non-negative word. So entry n is the log_softmax
  matrix at (n, T n), which is  z n (T n) - log ∑ exp (z n ·) = -(rowLoss n);  the sum over n divided by 4096 and
  negated is the mean of the row losses.
-/
import proofs.«412588_j19061064860142_3_alg».proof.Proof.RefRead
import proofs.«412588_j19061064860142_3_alg».proof.Proof.Spec
import proofs.«412588_j19061064860142_3_alg».proof.Proof.OnlineLse
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.StableHlo.Predicate

noncomputable section

open scoped BigOperators

namespace Cert.RefValue

open Idealize.ShloMosaic Idealize.ShloMosaic.ValueIdx Cert.Spec Cert.ReferenceIdeal Cert.ReferenceIdeal.ReadP

/-- The gather with both operand axes collapsed and start-indexed, read at row n: the operand at the two start
    indices of row n of the index pairs, each read signed and clamped into its axis. -/
theorem gather_pair_apply {α : Type} (x : S4096x8192.Idx → α) (idx : IVec S4096x2 32) (n : Fin 4096) :
    Host.gather gather_S4096x8192_S4096x2_S4096_n_01_n_n_01_1_11 x idx (ix1 n)
      = x (ix2 (⟨min (idx (ix2 n (0 : Fin 2))).toInt.toNat 4095, by omega⟩ : Fin 4096)
               (⟨min (idx (ix2 n (1 : Fin 2))).toInt.toNat 8191, by omega⟩ : Fin 8192)) := by
  unfold Host.gather
  congr 1
  funext a
  refine Fin.ext ?_
  have hb : ∀ a : Fin S4096x8192.rank, a ∉ gather_S4096x8192_S4096x2_S4096_n_01_n_n_01_1_11.operandBatchingDims :=
    fun _ => List.not_mem_nil
  have hc : ∀ a : Fin S4096x8192.rank, a ∈ gather_S4096x8192_S4096x2_S4096_n_01_n_n_01_1_11.collapsedSliceDims := fun a => by
    show a ∈ ([0, 1] : List (Fin 2))
    match a with
    | ⟨0, _⟩ => simp
    | ⟨1, _⟩ => simp
  have hm : ∀ a : Fin S4096x8192.rank, a ∈ gather_S4096x8192_S4096x2_S4096_n_01_n_n_01_1_11.startIndexMap := hc
  show gather_S4096x8192_S4096x2_S4096_n_01_n_n_01_1_11.start (ix1 n) idx a
      + gather_S4096x8192_S4096x2_S4096_n_01_n_n_01_1_11.batchCoord (ix1 n) a
      + gather_S4096x8192_S4096x2_S4096_n_01_n_n_01_1_11.offCoord (ix1 n) a = _
  rw [GatherDims.batchCoord_eq_zero _ _ _ (hb a),
    GatherDims.offCoord_eq_zero _ _ _ (fun h => ((GatherDims.mem_sKept _ _).mp h).1 (hc a))]
  simp only [Nat.add_zero]
  unfold GatherDims.start
  rw [dif_pos (hm a)]
  match a with
  | ⟨0, _⟩ =>
    have hsi : gather_S4096x8192_S4096x2_S4096_n_01_n_n_01_1_11.siIdx (ix1 n)
        ⟨List.idxOf (⟨0, by decide⟩ : Fin S4096x8192.rank) gather_S4096x8192_S4096x2_S4096_n_01_n_n_01_1_11.startIndexMap,
          List.idxOf_lt_length_iff.2 (hm _)⟩ = ix2 n (0 : Fin 2) := by
      funext b; refine Fin.ext ?_
      match b with
      | ⟨0, _⟩ => rfl
      | ⟨1, _⟩ => rfl
    rw [hsi]
    rfl
  | ⟨1, _⟩ =>
    have hsi : gather_S4096x8192_S4096x2_S4096_n_01_n_n_01_1_11.siIdx (ix1 n)
        ⟨List.idxOf (⟨1, by decide⟩ : Fin S4096x8192.rank) gather_S4096x8192_S4096x2_S4096_n_01_n_n_01_1_11.startIndexMap,
          List.idxOf_lt_length_iff.2 (hm _)⟩ = ix2 n (1 : Fin 2) := by
      funext b; refine Fin.ext ?_
      match b with
      | ⟨0, _⟩ => rfl
      | ⟨1, _⟩ => rfl
    rw [hsi]
    rfl

open Idealize.ShloMosaic.StableHlo.Predicate in
/-- A word below 2^31 is not negative as a signed word: the signed comparison with zero gives the bit 0. -/
theorem slt_zero_of_small (w : BitVec 32) (hw : w.toNat < 2 ^ 31) : IntOp.cmpi .slt w 0#32 = 0#1 :=
  eq_zero_of_ne_one fun h => absurd ((slt_iff_toNat hw (by decide)).mp h) (Nat.not_lt_zero _)

/-- The row numbers, normalised: a row number is non-negative, so the wrap-around of negative indices leaves it. -/
theorem rows_apply (n : Fin 4096) : val_main_v38 (F := Ideal) (ix1 n) = BitVec.ofNat 32 n.val := by
  rw [val_main_v38_apply, val_main_v35_apply, val_main_v33_apply, val_main_v34_apply, val_main_c_apply]
  rw [slt_zero_of_small _ (by
    show (BitVec.ofNat 32 n.val).toNat < 2 ^ 31
    rw [BitVec.toNat_ofNat]; have := n.isLt; omega), select_zero]

/-- The targets, normalised: a class index is non-negative, so the wrap-around of negative indices leaves it. -/
theorem cols_apply (x2 : (⟨S4096, .i32⟩ : BufTy).Contents (Elt Ideal)) (hT : ∀ n : Fin 4096, (x2 (ix1 n)).toNat < 8192)
    (n : Fin 4096) : val_main_v43 (F := Ideal) x2 (ix1 n) = x2 (ix1 n) := by
  rw [val_main_v43_apply, val_main_v40_apply, val_main_v39_apply, val_main_c_6_apply]
  rw [slt_zero_of_small _ (by have := hT n; omega), select_zero]

/-- Column 0 of the index pairs is the row number. -/
theorem pairs_left (x2 : (⟨S4096, .i32⟩ : BufTy).Contents (Elt Ideal)) (n : Fin 4096) :
    val_main_v46 (F := Ideal) x2 (ix2 n (0 : Fin 2)) = BitVec.ofNat 32 n.val := by
  unfold val_main_v46
  rw [concatenate_pair_apply_left (t := S4096x2) (s₁ := S4096x1) (s₂ := S4096x1) (1 : Fin 2) _ _ _ (ix2 n (0 : Fin 2)) rfl
    (ix2 n (0 : Fin 1)) (fun b => by
      match b with
      | ⟨0, _⟩ => rfl
      | ⟨1, _⟩ => rfl)]
  rw [val_main_v44_apply]
  have e : idx_main_v44 (ix2 n (0 : Fin 1)) = ix1 n := funext fun a => Fin.ext (by match a with | ⟨0, _⟩ => rfl)
  rw [e, rows_apply]

/-- Column 1 of the index pairs is the target class. -/
theorem pairs_right (x2 : (⟨S4096, .i32⟩ : BufTy).Contents (Elt Ideal)) (hT : ∀ n : Fin 4096, (x2 (ix1 n)).toNat < 8192)
    (n : Fin 4096) : val_main_v46 (F := Ideal) x2 (ix2 n (1 : Fin 2)) = x2 (ix1 n) := by
  unfold val_main_v46
  rw [concatenate_pair_apply_right (t := S4096x2) (s₁ := S4096x1) (s₂ := S4096x1) (1 : Fin 2) _ _ _ (ix2 n (1 : Fin 2)) rfl rfl
    (ix2 n (0 : Fin 1)) (fun b hb => by
      match b with
      | ⟨0, _⟩ => rfl
      | ⟨1, _⟩ => exact absurd rfl hb) rfl]
  rw [val_main_v45_apply]
  have e : idx_main_v45 (ix2 n (0 : Fin 1)) = ix1 n := funext fun a => Fin.ext (by match a with | ⟨0, _⟩ => rfl)
  rw [e, cols_apply x2 hT]

open Idealize.ShloMosaic.StableHlo.Predicate in
/-- THE GATHER READ AT ROW n: column T n of row n of the log_softmax matrix. Both start indices are in range, so the
    clamp leaves them: the row number n is below 4096 and the target is below 8192. -/
theorem gather_at (x0 : (⟨S4096x512, .f32⟩ : BufTy).Contents (Elt Ideal)) (x2 : (⟨S4096, .i32⟩ : BufTy).Contents (Elt Ideal))
    (x3 x4 : (⟨S8192x512, .f32⟩ : BufTy).Contents (Elt Ideal)) (hT : ∀ n : Fin 4096, (x2 (ix1 n)).toNat < 8192) (n : Fin 4096) :
    val_main_v47 (F := Ideal) x0 x2 x3 x4 (ix1 n) = val_main_v32 (F := Ideal) x0 x3 x4 (ix2 n (tgt x2 n)) := by
  unfold val_main_v47
  rw [gather_pair_apply]
  congr 1
  funext a
  refine Fin.ext ?_
  match a with
  | ⟨0, _⟩ =>
    show min (val_main_v46 (F := Ideal) x2 (ix2 n (0 : Fin 2))).toInt.toNat 4095 = n.val
    have hn := n.isLt
    rw [pairs_left, toInt_ofNat_small _ (by omega), Int.toNat_natCast]
    omega
  | ⟨1, _⟩ =>
    show min (val_main_v46 (F := Ideal) x2 (ix2 n (1 : Fin 2))).toInt.toNat 8191 = (x2 (ix1 n)).toNat % 8192
    have hn := hT n
    rw [pairs_right x2 hT, toInt_eq_toNat_of_lt (by omega), Int.toNat_natCast, Nat.mod_eq_of_lt hn]
    omega

/-- `4096.0`, the divisor of the mean, denotes the real `4096`. -/
theorem ofBits_4096 : Ideal.ofBits .f32 0x45800000#32 = ((4096 : ℝ) : EReal) := by
  simp [Ideal.ofBits, Ideal.ieee, -EReal.coe_mul]; norm_num

/-- The reference's result is the mean cross-entropy plus the regulariser's term. -/
theorem ref_value (x0 : (⟨S4096x512, .f32⟩ : BufTy).Contents (Elt Ideal)) (x2 : (⟨S4096, .i32⟩ : BufTy).Contents (Elt Ideal))
    (x3 x4 : (⟨S8192x512, .f32⟩ : BufTy).Contents (Elt Ideal))
    (hL : ∀ (n : Fin 4096) (c : Fin 8192), val_main_v32 (F := Ideal) x0 x3 x4 (ix2 n c)
      = ((zr (val_main_v15 (F := Ideal) x0) (val_main_v1 (F := Ideal) x4) (val_main_v8 (F := Ideal) x3) n c - Real.log (∑ c' : Fin 8192, Real.exp (zr (val_main_v15 (F := Ideal) x0) (val_main_v1 (F := Ideal) x4) (val_main_v8 (F := Ideal) x3) n c')) : ℝ) : EReal))
    (hT : ∀ n : Fin 4096, (x2 (ix1 n)).toNat < 8192) :
    val_main_v70 (F := Ideal) x0 x2 x3 x4
      = fun _ => ((ce (val_main_v15 (F := Ideal) x0) (val_main_v1 (F := Ideal) x4) (val_main_v8 (F := Ideal) x3) x2 : ℝ) : EReal)
          + val_main_v69 (F := Ideal) x3 x4 ix0 := by
  funext i
  obtain rfl : i = ix0 := eq_ix0 i
  -- each picked entry is minus the row's cross-entropy
  have hrow : ∀ n : Fin 4096, val_main_v47 (F := Ideal) x0 x2 x3 x4 (ix1 n)
      = ((-(rowLoss (val_main_v15 (F := Ideal) x0) (val_main_v1 (F := Ideal) x4) (val_main_v8 (F := Ideal) x3) x2 n) : ℝ) : EReal) := by
    intro n
    rw [gather_at x0 x2 x3 x4 hT n, hL]
    congr 1
    unfold rowLoss
    ring
  -- so their sum is minus the sum of the rows' cross-entropies
  have hsum : ∑ j : S4096.Idx, val_main_v47 (F := Ideal) x0 x2 x3 x4 j
      = ((-(∑ n : Fin 4096, rowLoss (val_main_v15 (F := Ideal) x0) (val_main_v1 (F := Ideal) x4) (val_main_v8 (F := Ideal) x3) x2 n) : ℝ) : EReal) := by
    rw [← Equiv.sum_comp (idxEquiv1 (n := 4096)).symm, ← Finset.sum_neg_distrib, Cert.OnlineLse.coe_sum]
    exact Finset.sum_congr rfl fun n _ => hrow n
  rw [val_main_v70_apply, val_main_v50_apply, val_main_v49_apply, val_main_v48_apply, val_main_cst_8_apply, val_main_cst_9_apply, hsum]
  simp only [Ideal.addf_def, Ideal.hostNegf_def, Ideal.negf_def, Ideal.hostDivf_def, Ideal.ofBits_def]
  rw [Ideal.ofBits_zero_f32, ofBits_4096, zero_add, Ideal.div_coe (by norm_num), ← EReal.coe_mul, ← EReal.coe_neg]
  refine congrArg (· + _) (congrArg _ ?_)
  unfold ce
  ring

end Cert.RefValue

end
-- ==== Proof.KLoop.lean ====
/-
  The body's result as a function of its four input blocks.

  The body visits the 8192 classes in 16 chunks of 512. Chunk k reads rows 512k … 512k+511 of the weight block and
  columns 512k … 512k+511 of the bias row, and updates three columns of 1024 running values (a running upper value, a
  running sum of exponentials, a running target term). What the body stores is a pointwise function of the three columns
  after the last chunk. Here the run's own recursion over the chunks is identified with a plain recursion over these
  updates.
-/
import proofs.«412588_j19061064860142_3_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

/-- The three carried columns. -/
abbrev Carry (F : FTy → Type) [FloatOps F] : Type := FVec F S1024x1 .f32 × FVec F S1024x1 .f32 × FVec F S1024x1 .f32

/-- Chunk `k` of the weight block: its rows 512k … 512k+511. -/
def wChunk (x1 : Vec F S8192x1024 .bf16) (k : Fin k0_t1_loop.trips) : Vec F S512x1024 .bf16 :=
  View.ld x1 (Rect.unit (s := S8192x1024) (k0_off1 k) S512x1024.size (k0_off1_inb k))

/-- Chunk `k` of the bias row: its columns 512k … 512k+511. -/
def pChunk (x2 : Vec F S1x8192 .f32) (k : Fin k0_t1_loop.trips) : Vec F S1x512 .f32 :=
  View.ld x2 (Rect.unit (s := S1x8192) (k0_off2 k) S1x512.size (k0_off2_inb k))

/-- One chunk's update of the carried columns. -/
def chunkStep (x0 : Vec F S1024x1024 .bf16) (x1 : Vec F S8192x1024 .bf16) (x2 : Vec F S1x8192 .f32) (x3 : Vec F S1024x1 .i32)
    (k : Fin k0_t1_loop.trips) (acc : Carry F) : Carry F :=
  (k0_pay5 x0 acc.1 (wChunk x1 k) (pChunk x2 k), k0_pay6 x0 acc.1 acc.2.1 (wChunk x1 k) (pChunk x2 k),
    k0_pay7 x0 x3 k acc.2.2 (wChunk x1 k) (pChunk x2 k))

/-- The carried columns before chunk `n`. -/
def carried (x0 : Vec F S1024x1024 .bf16) (x1 : Vec F S8192x1024 .bf16) (x2 : Vec F S1x8192 .f32) (x3 : Vec F S1024x1 .i32) :
    ℕ → Carry F
  | 0 => (k0_pay1, k0_pay2, k0_pay3)
  | n + 1 => if h : n < k0_t1_loop.trips then chunkStep x0 x1 x2 x3 ⟨n, h⟩ (carried x0 x1 x2 x3 n) else carried x0 x1 x2 x3 n

/-- What one trip of the run yields is the chunk's update: the trip's two loads read the chunk of the weight block and of
    the bias row. -/
theorem trip_eq (𝒱 : Variants) (c : Dev nD) (bd : Option 𝒱.V) (i : grid0.Coords) (arg1 : Memref sig .tc .vmem S1024x1024 .bf16) (harg1 : arg1.IsWhole) (arg2 : Memref sig .tc .vmem S8192x1024 .bf16) (harg2 : arg2.IsWhole) (arg3 : Memref sig .tc .vmem S1x8192 .f32) (harg3 : arg3.IsWhole) (arg4 : Memref sig .tc .vmem S1024x1 .i32) (harg4 : arg4.IsWhole) (arg5 : Memref sig .tc .vmem S1024x1 .f32) (harg5 : arg5.IsWhole)
    (x0 : Vec F S1024x1024 .bf16) (x1 : Vec F S8192x1024 .bf16) (x2 : Vec F S1x8192 .f32) (x3 : Vec F S1024x1 .i32)
    (k : Fin k0_t1_loop.trips) (acc : Carry F) :
    tripR_k0_t1 (F := F) 𝒱 c bd i arg1 harg1 arg2 harg2 arg3 harg3 arg4 harg4 arg5 harg5 x0 x3 (harg2.unread x1) (harg3.unread x2) k acc
      = chunkStep x0 x1 x2 x3 k acc := by
  unfold tripR_k0_t1 trip_k0_t1
  dsimp only
  sl_unfold_words
  simp only [View.readAt_eq_ld, harg2.read_unread, harg3.read_unread]
  rfl

/-- The run's recursion over the trips is the recursion over the chunk updates. -/
theorem st_eq_carried (𝒱 : Variants) (c : Dev nD) (bd : Option 𝒱.V) (i : grid0.Coords) (arg1 : Memref sig .tc .vmem S1024x1024 .bf16) (harg1 : arg1.IsWhole) (arg2 : Memref sig .tc .vmem S8192x1024 .bf16) (harg2 : arg2.IsWhole) (arg3 : Memref sig .tc .vmem S1x8192 .f32) (harg3 : arg3.IsWhole) (arg4 : Memref sig .tc .vmem S1024x1 .i32) (harg4 : arg4.IsWhole) (arg5 : Memref sig .tc .vmem S1024x1 .f32) (harg5 : arg5.IsWhole)
    (x0 : Vec F S1024x1024 .bf16) (x1 : Vec F S8192x1024 .bf16) (x2 : Vec F S1x8192 .f32) (x3 : Vec F S1024x1 .i32) (n : ℕ) :
    st_k0_t1 (F := F) 𝒱 c bd i arg1 harg1 arg2 harg2 arg3 harg3 arg4 harg4 arg5 harg5 x0 x3 (harg2.unread x1) (harg3.unread x2) (k0_pay1, k0_pay2, k0_pay3) n
      = carried x0 x1 x2 x3 n := by
  induction n with
  | zero => rfl
  | succ n ih =>
    rw [st_k0_t1.eq_2, carried]
    unfold st_k0_t1Step
    by_cases h : n < k0_t1_loop.trips
    · rw [dif_pos h, dif_pos h, ih]
      exact trip_eq 𝒱 c bd i arg1 harg1 arg2 harg2 arg3 harg3 arg4 harg4 arg5 harg5 x0 x1 x2 x3 ⟨n, h⟩ _
    · rw [dif_neg h, dif_neg h, ih]

theorem hz2 : (![0, 0] : Fin S1024x1.rank → ℕ) = fun _ => 0 := by
  funext a; match a with | ⟨0, _⟩ => rfl | ⟨1, _⟩ => rfl

theorem hz1 : (![0, 0] : Fin S1024x1024.rank → ℕ) = fun _ => 0 := by
  funext a; match a with | ⟨0, _⟩ => rfl | ⟨1, _⟩ => rfl

/-- The loop makes 16 trips. -/
theorem trips16 : Scf.trips (0#32) (Scalar.addi 0#32 16#32) 1#32 = 16 := by decide

/-- What the body leaves in the output block: the final pointwise function of the carried columns after the 16 chunks. -/
theorem out_eq (c : Dev nD) (i : grid0.Coords) (arg1 : Memref sig .tc .vmem S1024x1024 .bf16) (harg1 : arg1.IsWhole) (arg2 : Memref sig .tc .vmem S8192x1024 .bf16) (harg2 : arg2.IsWhole) (arg3 : Memref sig .tc .vmem S1x8192 .f32) (harg3 : arg3.IsWhole) (arg4 : Memref sig .tc .vmem S1024x1 .i32) (harg4 : arg4.IsWhole) (arg5 : Memref sig .tc .vmem S1024x1 .f32) (harg5 : arg5.IsWhole)
    (x0 : Vec F S1024x1024 .bf16) (x1 : Vec F S8192x1024 .bf16) (x2 : Vec F S1x8192 .f32) (x3 : Vec F S1024x1 .i32) :
    out0_A_4 (F := F) c i arg1 harg1 arg2 harg2 arg3 harg3 arg4 harg4 arg5 harg5 x0 x1 x2 x3
      = k0_pay8 (carried x0 x1 x2 x3 16).1 (carried x0 x1 x2 x3 16).2.1 (carried x0 x1 x2 x3 16).2.2 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz2]
  simp only [View.readAt_eq_ld, harg1.read_unread, harg4.read_unread, View.ld_unit_zero (S := S1024x1024) hz1,
    View.ld_unit_zero (S := S1024x1) hz2, st_eq_carried, trips16]

end Cert.KernelIdeal.Body

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.KPay.lean ====
/-
  The body's arithmetic, read at one row.

  For one chunk (a [512 × 1024] slice `w` of the weight block and a [1 × 512] slice `p` of the bias row) and row `r` of the
  [1024 × 1024] input block `x0`, the chunk's logit at column `j` is  ∑_k x0(r,k) · w(j,k) + p(0,j)  (a matrix product against
  a transposed right operand, plus the bias broadcast down the rows). The three carried columns are updated, at row `r`, by
  the maximum of the old running value and the chunk's logits; the rescaled running sum plus the chunk's sum of
  exponentials; and the running target term minus the sum of the logits whose global column `512 k + j` equals the row's
  target word. The stored value is (target term + running value) + log (running sum).
-/
import proofs.«412588_j19061064860142_3_alg».proof.Proof.Gen.KernelIdeal.Skeleton
import proofs.«412588_j19061064860142_3_alg».proof.Proof.LibDotNT
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Pay

open Idealize.ShloMosaic Idealize.ShloMosaic.ValueIdx
open Cert.KernelIdeal Cert.KernelIdeal.Gen

/-- The chunk's logit of row `r` at the chunk's column `j`. -/
def score (x0 : Vec Ideal S1024x1024 .bf16) (w : Vec Ideal S512x1024 .bf16) (p : Vec Ideal S1x512 .f32)
    (r : Fin 1024) (j : Fin 512) : EReal :=
  (∑ kk : Fin 1024, x0 (ix2 r kk) * w (ix2 j kk)) + p (ix2 (0 : Fin 1) j)

/-- The pattern 0xFF800000 is the extended real -∞. -/
private theorem ofBits_neg_inf_f32 : Ideal.ofBits .f32 0xFF800000#32 = (⊥ : EReal) := by
  simp [Ideal.ofBits, Ideal.ieee]

/-- The generated dimension numbers are those of a product against a transposed right operand. -/
private theorem dot_eq : dot_S1024x1024_S512x1024_S1024x512_1_1_0_0_n_n = DotDims.transposedRhs 1024 1024 512 := rfl

/-- The row index `r` of the reduced vector with the column `k` put back on the reduced axis is `(r, k)`. -/
private theorem lift_row (r : Fin 1024) (k : Fin 512) :
    reduces_S1024x512_S1024.lift (ix1 r) k = ix2 r k := by
  funext c
  apply Fin.ext
  match c with
  | ⟨0, _⟩ => rfl
  | ⟨1, _⟩ => rfl

/-- A length-1024 vector viewed as a column reads, at `(r, 0)`, the vector at `r`. -/
private theorem col_apply {α : Type} (v : S1024.Idx → α) (r : Fin 1024) :
    shapeCast S1024x1 v shapeCasts_S1024_S1024x1 (ix2 r (0 : Fin 1)) = v (ix1 r) :=
  shapeCast_apply v _ _ _ (by
    rw [Shape.rowMajor_val_one, Shape.rowMajor_val_two]
    show r.val = r.val * 1 + 0
    omega)

/-- A column broadcast along the rows' 512 entries reads, at `(r, j)`, the column at `(r, 0)`. -/
private theorem bcol_apply {α : Type} (v : S1024x1.Idx → α) (r : Fin 1024) (j : Fin 512) :
    broadcastTo S1024x512 v broadcasts_S1024x1_S1024x512 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- The word the chunk's column `j` carries: `512 k + j`, computed in 32-bit arithmetic, which is a ring
    homomorphic image of the naturals, so no bound on `k` or `j` is needed. -/
private theorem col_word (k j : Nat) :
    IntOp.addi (Scalar.muli (Scf.iv 0#32 1#32 k) 512#32) (BitVec.ofNat 32 j) = BitVec.ofNat 32 (512 * k + j) := by
  show (0#32 + BitVec.ofNat 32 k * 1#32) * 512#32 + BitVec.ofNat 32 j = _
  rw [BitVec.ofNat_add, BitVec.ofNat_mul, BitVec.zero_add, BitVec.mul_one, BitVec.mul_comm]

/-- A selection by an equality comparison of two words is the conditional on their equality. -/
private theorem select_cmpi_eq {α : Type} {n : Nat} (a b : BitVec n) (s z : α) :
    Scalar.select (IntOp.cmpi .eq a b) s z = if a = b then s else z := by
  have hc : IntOp.cmpi .eq a b = BitVec.ofBool (a == b) := rfl
  unfold Scalar.select
  rw [hc]
  by_cases h : a = b
  · subst h; simp
  · have hne : (a == b) = false := beq_eq_false_iff_ne.2 h
    rw [hne, if_neg h]
    exact if_neg (by decide)

theorem pay1_apply (i : S1024x1.Idx) : k0_pay1 (F := Ideal) i = (⊥ : EReal) := by
  unfold k0_pay1
  exact ofBits_neg_inf_f32

theorem pay2_apply (i : S1024x1.Idx) : k0_pay2 (F := Ideal) i = (0 : EReal) := by
  unfold k0_pay2
  exact Ideal.ofBits_zero_f32

theorem pay3_apply (i : S1024x1.Idx) : k0_pay3 (F := Ideal) i = (0 : EReal) := by
  unfold k0_pay3
  exact Ideal.ofBits_zero_f32

theorem pay4_apply (x0 : Vec Ideal S1024x1024 .bf16) (w : Vec Ideal S512x1024 .bf16) (p : Vec Ideal S1x512 .f32)
    (r : Fin 1024) (j : Fin 512) :
    k0_pay4 (F := Ideal) x0 w p (ix2 r j) = score x0 w p r j := by
  unfold k0_pay4 score
  simp only [shapeCast_self]
  rw [addf_apply, broadcastTo_1b_ab_apply, dot_eq]
  exact congrArg (· + p (ix2 (0 : Fin 1) j)) (Cert.LibDotNT.matmul_nt_apply 1024 1024 512 none x0 w r j)

theorem pay5_apply (x0 : Vec Ideal S1024x1024 .bf16) (m : FVec Ideal S1024x1 .f32) (w : Vec Ideal S512x1024 .bf16)
    (p : Vec Ideal S1x512 .f32) (r : Fin 1024) :
    k0_pay5 (F := Ideal) x0 m w p (ix2 r (0 : Fin 1))
      = max (m (ix2 r (0 : Fin 1))) ((Finset.univ : Finset (Fin 512)).fold max (⊥ : EReal) (fun j => score x0 w p r j)) := by
  unfold k0_pay5
  dsimp only
  rw [maximumf_apply, col_apply]
  refine congrArg (max (m (ix2 r (0 : Fin 1)))) ?_
  refine (Ideal.multiReduction_maximumf_single _ _ _ _ _ (ix1 r)).trans ?_
  have hb : (FloatOps.ofBits (F := Ideal) .f32 0xFF800000#32 : EReal) = ⊥ := ofBits_neg_inf_f32
  rw [hb]
  refine Finset.fold_congr fun (k : Fin 512) _ => ?_
  show k0_pay4 (F := Ideal) x0 w p (reduces_S1024x512_S1024.lift (ix1 r) k) = score x0 w p r k
  rw [lift_row, pay4_apply]

theorem pay6_apply (x0 : Vec Ideal S1024x1024 .bf16) (m l : FVec Ideal S1024x1 .f32) (w : Vec Ideal S512x1024 .bf16)
    (p : Vec Ideal S1x512 .f32) (r : Fin 1024) :
    k0_pay6 (F := Ideal) x0 m l w p (ix2 r (0 : Fin 1))
      = Ideal.exp (m (ix2 r (0 : Fin 1)) - k0_pay5 (F := Ideal) x0 m w p (ix2 r (0 : Fin 1))) * l (ix2 r (0 : Fin 1))
        + ∑ j : Fin 512, Ideal.exp (score x0 w p r j - k0_pay5 (F := Ideal) x0 m w p (ix2 r (0 : Fin 1))) := by
  unfold k0_pay6
  dsimp only
  rw [addf_apply, mulf_apply, col_apply]
  refine congrArg₂ (· + ·) rfl ?_
  refine (Ideal.multiReduction_add_single _ _ _ _ _ (ix1 r)).trans ?_
  refine Finset.sum_congr rfl fun (k : Fin 512) _ => ?_
  rw [lift_row]
  show Ideal.exp (k0_pay4 (F := Ideal) x0 w p (ix2 r k)
      - broadcastTo S1024x512 (k0_pay5 (F := Ideal) x0 m w p) broadcasts_S1024x1_S1024x512 (ix2 r k)) = _
  rw [bcol_apply, pay4_apply]

theorem pay7_apply (x0 : Vec Ideal S1024x1024 .bf16) (x3 : Vec Ideal S1024x1 .i32) (k : Fin k0_t1_loop.trips)
    (d : FVec Ideal S1024x1 .f32) (w : Vec Ideal S512x1024 .bf16) (p : Vec Ideal S1x512 .f32) (r : Fin 1024) :
    k0_pay7 (F := Ideal) x0 x3 k d w p (ix2 r (0 : Fin 1))
      = d (ix2 r (0 : Fin 1))
        + (0 - ∑ j : Fin 512, if BitVec.ofNat 32 (512 * k.val + j.val) = x3 (ix2 r (0 : Fin 1)) then score x0 w p r j else 0) := by
  unfold k0_pay7
  dsimp only
  rw [addf_apply, subf_apply, col_apply]
  refine congrArg (d (ix2 r (0 : Fin 1)) + ·) ?_
  refine congrArg₂ (· - ·) Ideal.ofBits_zero_f32 ?_
  refine (Ideal.multiReduction_add_single _ _ _ _ _ (ix1 r)).trans ?_
  refine Finset.sum_congr rfl fun (j : Fin 512) _ => ?_
  rw [lift_row, select_apply]
  show Scalar.select (IntOp.cmpi .eq
        (IntOp.addi (Scalar.muli (Scf.iv 0#32 1#32 k.val) 512#32)
          (iota .tc S1024x512 32 [1] iota_S1024x512_d1_w32 (ix2 r j)))
        (broadcastTo S1024x512 (shapeCast S1024x1 x3 shapeCasts_S1024x1_S1024x1) broadcasts_S1024x1_S1024x512 (ix2 r j)))
      (k0_pay4 (F := Ideal) x0 w p (ix2 r j)) (Ideal.ofBits .f32 0x00000000#32) = _
  rw [select_cmpi_eq, iota_single_apply, bcol_apply, shapeCast_self, pay4_apply, Ideal.ofBits_zero_f32]
  show (if IntOp.addi (Scalar.muli (Scf.iv 0#32 1#32 k.val) 512#32) (BitVec.ofNat 32 j.val) = x3 (ix2 r (0 : Fin 1))
      then score x0 w p r j else 0) = _
  rw [col_word]

theorem pay8_apply (m l d : FVec Ideal S1024x1 .f32) (r : Fin 1024) :
    k0_pay8 (F := Ideal) m l d (ix2 r (0 : Fin 1))
      = (d (ix2 r (0 : Fin 1)) + m (ix2 r (0 : Fin 1))) + Ideal.log (l (ix2 r (0 : Fin 1))) := by
  unfold k0_pay8
  rfl

end Cert.KernelIdeal.Pay

end
-- ==== Proof.KRow.lean ====
/-
  One row of the body's result, over the reals.

  Fix the four input blocks, with real entries, and a local row `r`. The chunk's logits are the casts of the real numbers
  zk r c = ∑_k x0(r,k) · x1(c,k) + x2(0,c)  at the chunk's global columns c = 512 k + j, and the body's comparison of the
  column word with the row's target word picks the column equal to the target class. So after n chunks the three carried
  values at row `r` satisfy the streaming invariant over the columns below 512 n, and after the 16th the stored value is
  -(zk r t) + log ∑_c exp (zk r c).
-/
import proofs.«412588_j19061064860142_3_alg».proof.Proof.KLoop
import proofs.«412588_j19061064860142_3_alg».proof.Proof.KPay
import proofs.«412588_j19061064860142_3_alg».proof.Proof.OnlineLse
import proofs.«412588_j19061064860142_3_alg».proof.Proof.Spec

set_option maxRecDepth 16384

noncomputable section

open scoped BigOperators

namespace Cert.KernelIdeal.Row

open Idealize.ShloMosaic Idealize.ShloMosaic.ValueIdx
open Cert.Spec Cert.OnlineLse Cert.KernelIdeal Cert.KernelIdeal.Gen Cert.KernelIdeal.Body Cert.KernelIdeal.Pay

theorem trips_eq : k0_t1_loop.trips = 16 := by decide

/-- The global column of chunk `k`'s column `j`. -/
def col (k : Fin k0_t1_loop.trips) (j : Fin 512) : Fin 8192 :=
  ⟨512 * k.val + j.val, by have h1 := k.isLt; have h2 := trips_eq; have h3 := j.isLt; omega⟩

theorem col_injective (k : Fin k0_t1_loop.trips) : Function.Injective (col k) := by
  intro a b h
  have := congrArg Fin.val h
  simp only [col] at this
  exact Fin.ext (by omega)

/-- Row `j` of chunk `k` of the weight block is its row 512 k + j. -/
theorem wChunk_apply (x1 : Vec Ideal S8192x1024 .bf16) (k : Fin k0_t1_loop.trips) (j : Fin 512) (kk : Fin 1024) :
    wChunk x1 k (ix2 j kk) = x1 (ix2 (col k j) kk) := by
  unfold wChunk
  show x1 ((Rect.unit (s := S8192x1024) (k0_off1 k) S512x1024.size (k0_off1_inb k)).emb (ix2 j kk)) = _
  refine congrArg x1 (funext fun a => Fin.ext ?_)
  have hoff := k0_off1_eq k
  match a with
  | ⟨0, _⟩ =>
    show (k0_off1 k) 0 + 1 * j.val = 512 * k.val + j.val
    rw [hoff]; show 512 * k.val + 1 * j.val = _; omega
  | ⟨1, _⟩ =>
    show (k0_off1 k) 1 + 1 * kk.val = kk.val
    rw [hoff]; show 0 + 1 * kk.val = _; omega

/-- Column `j` of chunk `k` of the bias row is its column 512 k + j. -/
theorem pChunk_apply (x2 : Vec Ideal S1x8192 .f32) (k : Fin k0_t1_loop.trips) (j : Fin 512) :
    pChunk x2 k (ix2 (0 : Fin 1) j) = x2 (ix2 (0 : Fin 1) (col k j)) := by
  unfold pChunk
  show x2 ((Rect.unit (s := S1x8192) (k0_off2 k) S1x512.size (k0_off2_inb k)).emb (ix2 (0 : Fin 1) j)) = _
  refine congrArg x2 (funext fun a => Fin.ext ?_)
  have hoff := k0_off2_eq k
  match a with
  | ⟨0, _⟩ =>
    show (k0_off2 k) 0 + 1 * 0 = 0
    rw [hoff]; rfl
  | ⟨1, _⟩ =>
    show (k0_off2 k) 1 + 1 * j.val = 512 * k.val + j.val
    rw [hoff]; show 512 * k.val + 1 * j.val = _; omega

/-- The real logit of local row `r` and class `c`, from the blocks. -/
def zk (x0 : Vec Ideal S1024x1024 .bf16) (x1 : Vec Ideal S8192x1024 .bf16) (x2 : Vec Ideal S1x8192 .f32)
    (r : Fin 1024) (c : Fin 8192) : ℝ :=
  (∑ kk : Fin 1024, (x0 (ix2 r kk)).toReal * (x1 (ix2 c kk)).toReal) + (x2 (ix2 (0 : Fin 1) c)).toReal

/-- With real entries, the chunk's logit is the cast of the real logit at the chunk's global column. -/
theorem score_real (x0 : Vec Ideal S1024x1024 .bf16) (x1 : Vec Ideal S8192x1024 .bf16) (x2 : Vec Ideal S1x8192 .f32)
    (hA : ∀ i, IsReal (x0 i)) (hW : ∀ i, IsReal (x1 i)) (hP : ∀ i, IsReal (x2 i))
    (k : Fin k0_t1_loop.trips) (r : Fin 1024) (j : Fin 512) :
    score x0 (wChunk x1 k) (pChunk x2 k) r j = ((zk x0 x1 x2 r (col k j) : ℝ) : EReal) := by
  unfold score zk
  rw [pChunk_apply, EReal.coe_add, coe_sum]
  congr 1
  · refine Finset.sum_congr rfl fun kk _ => ?_
    rw [wChunk_apply, EReal.coe_mul, (hA _).coe_toReal, (hW _).coe_toReal]
  · exact ((hP _).coe_toReal).symm

/-- The row's target class. -/
def tcls (x3 : Vec Ideal S1024x1 .i32) (hT : ∀ r : Fin 1024, (x3 (ix2 r (0 : Fin 1))).toNat < 8192) (r : Fin 1024) : Fin 8192 :=
  ⟨(x3 (ix2 r (0 : Fin 1))).toNat, hT r⟩

/-- The column word equals the target word exactly when the column is the target class. -/
theorem word_eq_iff (x3 : Vec Ideal S1024x1 .i32) (hT : ∀ r : Fin 1024, (x3 (ix2 r (0 : Fin 1))).toNat < 8192)
    (k : Fin k0_t1_loop.trips) (r : Fin 1024) (j : Fin 512) :
    BitVec.ofNat 32 (512 * k.val + j.val) = x3 (ix2 r (0 : Fin 1)) ↔ col k j = tcls x3 hT r := by
  have h1 := k.isLt; have h2 := trips_eq; have h3 := j.isLt
  constructor
  · intro h
    apply Fin.ext
    show 512 * k.val + j.val = (x3 (ix2 r (0 : Fin 1))).toNat
    rw [← h, BitVec.toNat_ofNat]
    exact (Nat.mod_eq_of_lt (by omega)).symm
  · intro h
    have hv : 512 * k.val + j.val = (x3 (ix2 r (0 : Fin 1))).toNat := congrArg Fin.val h
    rw [hv]
    exact BitVec.eq_of_toNat_eq (by rw [BitVec.toNat_ofNat]; exact Nat.mod_eq_of_lt (x3 (ix2 r (0 : Fin 1))).isLt)

/-- The columns below 512 (n + 1) are those below 512 n and chunk n's. -/
theorem cols_succ (n : ℕ) (h : n < k0_t1_loop.trips) :
    (Finset.univ.filter fun c : Fin 8192 => c.val < 512 * (n + 1))
      = (Finset.univ.filter fun c : Fin 8192 => c.val < 512 * n) ∪ Finset.univ.image (col ⟨n, h⟩) := by
  ext c
  simp only [Finset.mem_filter, Finset.mem_univ, true_and, Finset.mem_union, Finset.mem_image]
  constructor
  · intro hc
    by_cases h0 : c.val < 512 * n
    · exact Or.inl h0
    · exact Or.inr ⟨⟨c.val - 512 * n, by omega⟩, Fin.ext (by show 512 * n + (c.val - 512 * n) = c.val; omega)⟩
  · rintro (hc | ⟨j, rfl⟩)
    · omega
    · show 512 * n + j.val < 512 * (n + 1); have := j.isLt; omega

/-- After `n` chunks the carried values at row `r` satisfy the streaming invariant over the columns below 512 n. -/
theorem row_inv (x0 : Vec Ideal S1024x1024 .bf16) (x1 : Vec Ideal S8192x1024 .bf16) (x2 : Vec Ideal S1x8192 .f32)
    (x3 : Vec Ideal S1024x1 .i32)
    (hA : ∀ i, IsReal (x0 i)) (hW : ∀ i, IsReal (x1 i)) (hP : ∀ i, IsReal (x2 i))
    (hT : ∀ r : Fin 1024, (x3 (ix2 r (0 : Fin 1))).toNat < 8192) (r : Fin 1024) :
    ∀ n, n ≤ 16 → Inv (Finset.univ.filter fun c : Fin 8192 => c.val < 512 * n) (zk x0 x1 x2 r) (tcls x3 hT r)
      ((carried x0 x1 x2 x3 n).1 (ix2 r (0 : Fin 1))) ((carried x0 x1 x2 x3 n).2.1 (ix2 r (0 : Fin 1)))
      ((carried x0 x1 x2 x3 n).2.2 (ix2 r (0 : Fin 1))) := by
  intro n
  induction n with
  | zero =>
    intro _
    have he : (Finset.univ.filter fun c : Fin 8192 => c.val < 512 * 0) = ∅ := by
      ext c; simp
    rw [he]
    show Inv ∅ (zk x0 x1 x2 r) (tcls x3 hT r) (k0_pay1 (F := Ideal) (ix2 r (0 : Fin 1))) (k0_pay2 (F := Ideal) (ix2 r (0 : Fin 1)))
      (k0_pay3 (F := Ideal) (ix2 r (0 : Fin 1)))
    rw [pay1_apply, pay2_apply, pay3_apply]
    exact inv_init _ _
  | succ n ih =>
    intro hn
    have h : n < k0_t1_loop.trips := by rw [trips_eq]; omega
    have hc : carried x0 x1 x2 x3 (n + 1) = chunkStep x0 x1 x2 x3 ⟨n, h⟩ (carried x0 x1 x2 x3 n) := by
      rw [carried]; exact dif_pos h
    rw [hc, cols_succ n h]
    refine inv_step _ _ _ _ _ _ (ih (by omega)) (col ⟨n, h⟩) (col_injective _) ?_
      (fun j => score x0 (wChunk x1 ⟨n, h⟩) (pChunk x2 ⟨n, h⟩) r j) (fun j => score_real x0 x1 x2 hA hW hP ⟨n, h⟩ r j)
      _ _ _ ?_ ?_ ?_
    · intro j hj
      have := (Finset.mem_filter.mp hj).2
      simp only [col] at this
      omega
    · exact pay5_apply x0 _ _ _ r
    · exact pay6_apply x0 _ _ _ _ r
    · refine (pay7_apply x0 x3 ⟨n, h⟩ _ _ _ r).trans ?_
      refine congrArg (fun z => _ + (0 - z)) (Finset.sum_congr rfl fun j _ => ?_)
      exact if_congr (word_eq_iff x3 hT ⟨n, h⟩ r j) rfl rfl

/-- The value the body stores at row `r`. -/
theorem row_value (x0 : Vec Ideal S1024x1024 .bf16) (x1 : Vec Ideal S8192x1024 .bf16) (x2 : Vec Ideal S1x8192 .f32)
    (x3 : Vec Ideal S1024x1 .i32)
    (hA : ∀ i, IsReal (x0 i)) (hW : ∀ i, IsReal (x1 i)) (hP : ∀ i, IsReal (x2 i))
    (hT : ∀ r : Fin 1024, (x3 (ix2 r (0 : Fin 1))).toNat < 8192) (r : Fin 1024) :
    k0_pay8 (F := Ideal) (carried x0 x1 x2 x3 16).1 (carried x0 x1 x2 x3 16).2.1 (carried x0 x1 x2 x3 16).2.2 (ix2 r (0 : Fin 1))
      = ((-(zk x0 x1 x2 r (tcls x3 hT r)) + Real.log (∑ c : Fin 8192, Real.exp (zk x0 x1 x2 r c)) : ℝ) : EReal) := by
  rw [pay8_apply]
  have h := row_inv x0 x1 x2 x3 hA hW hP hT r 16 le_rfl
  have hu : (Finset.univ.filter fun c : Fin 8192 => c.val < 512 * 16) = Finset.univ := by
    ext c; simp only [Finset.mem_filter, Finset.mem_univ, true_and, iff_true]; exact c.isLt
  rw [hu] at h
  exact inv_final _ _ _ _ _ h

end Cert.KernelIdeal.Row

end
-- ==== Proof.KFlush.lean ====
/-
  From the body's blocks to the whole result column.

  The grid has four points. Point t stages rows 1024 t … 1024 t + 1023 of the [4096 × 1024] operand and of the [4096 × 1]
  target column, the whole weight matrix and the whole bias row, and writes back rows 1024 t … 1024 t + 1023 of the
  [4096 × 1] result. So entry n of the result column is the row value of the body at local row n mod 1024 of point
  n / 1024, which is one function of the four arrays: minus the logit of row n at its target plus the log-sum-exp of the
  row's logits  zA n c = ∑_k A(n,k) · W(c,k) + P(0,c).
-/
import proofs.«412588_j19061064860142_3_alg».proof.Proof.KRow
import proofs.«412588_j19061064860142_3_alg».proof.Proof.Gen.KernelIdeal.Frame
import Idealize.ShloMosaic.Lib.Pipeline.Value

set_option maxRecDepth 16384

noncomputable section

open scoped BigOperators

namespace Cert.KernelIdeal.Flush

open Idealize.ShloMosaic Idealize.ShloMosaic.TcCoe Idealize.ShloMosaic.ValueIdx
open Idealize.SL Idealize.SL.Sem
open Cert.Spec Cert.KernelIdeal Cert.KernelIdeal.Gen Cert.KernelIdeal.Body Cert.KernelIdeal.Pay Cert.KernelIdeal.Row

variable (m : (ℓ : Loc nD τ sig) → Buf (Elt Ideal) ℓ)

/-- The four arrays the region reads, as it finds them. -/
abbrev Aarr (c : Dev nD) : Vec Ideal S4096x1024 .bf16 := V m c main_call0_v35
abbrev Warr (c : Dev nD) : Vec Ideal S8192x1024 .bf16 := V m c main_call0_v40
abbrev Parr (c : Dev nD) : Vec Ideal S1x8192 .f32 := V m c main_call0_v42
abbrev Tarr (c : Dev nD) : Vec Ideal S4096x1 .i32 := V m c main_call0_v44

/-- The blocks of point `t`. -/
abbrev b0 (c : Dev nD) (t : Fin cfg0.N) : Vec Ideal S1024x1024 .bf16 := iblk m c 0 t
abbrev b1 (c : Dev nD) (t : Fin cfg0.N) : Vec Ideal S8192x1024 .bf16 := iblk m c 1 t
abbrev b2 (c : Dev nD) (t : Fin cfg0.N) : Vec Ideal S1x8192 .f32 := iblk m c 2 t
abbrev b3 (c : Dev nD) (t : Fin cfg0.N) : Vec Ideal S1024x1 .i32 := iblk m c 3 t

/-- The real logit of row `n` and class `c`, from the arrays. -/
def zA (A : Vec Ideal S4096x1024 .bf16) (W : Vec Ideal S8192x1024 .bf16) (P : Vec Ideal S1x8192 .f32)
    (n : Fin 4096) (c : Fin 8192) : ℝ :=
  (∑ kk : Fin 1024, (A (ix2 n kk)).toReal * (W (ix2 c kk)).toReal) + (P (ix2 (0 : Fin 1) c)).toReal

/-- The target class of row `n`. -/
def tA (T : Vec Ideal S4096x1 .i32) (n : Fin 4096) : Fin 8192 :=
  ⟨(T (ix2 n (0 : Fin 1))).toNat % 8192, Nat.mod_lt _ (by norm_num)⟩

/-- The row's loss. -/
def rowA (A : Vec Ideal S4096x1024 .bf16) (W : Vec Ideal S8192x1024 .bf16) (P : Vec Ideal S1x8192 .f32)
    (T : Vec Ideal S4096x1 .i32) (n : Fin 4096) : ℝ :=
  -(zA A W P n (tA T n)) + Real.log (∑ c : Fin 8192, Real.exp (zA A W P n c))

/-- The result column as one function of the arrays. -/
def G (A : Vec Ideal S4096x1024 .bf16) (W : Vec Ideal S8192x1024 .bf16) (P : Vec Ideal S1x8192 .f32)
    (T : Vec Ideal S4096x1 .i32) : S4096x1.Idx → EReal :=
  fun i => ((rowA A W P T ⟨(i 0).val, idx2_lt0 i⟩ : ℝ) : EReal)

/-- The printed index maps, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 4 :=
  (by decide +kernel : ∀ t : Fin grid0.N, _)

/-- The global row of local row `r` of point `t`. -/
def grow (t : Fin cfg0.N) (r : Fin 1024) : Fin 4096 :=
  ⟨1024 * t.val + r.val, by have := (idx_facts t).2.2.2.2.2.2.2.2.2.2; have := r.isLt; omega⟩

theorem blkA (c : Dev nD) (t : Fin cfg0.N) (r kk : Fin 1024) :
    b0 m c t (ix2 r kk) = Aarr m c (ix2 (grow t r) kk) := by
  show Aarr m c (((cfg0.win 0).blk t).view.emb (ix2 r kk)) = _
  refine congrArg (Aarr m c) (funext fun a => Fin.ext ?_)
  obtain ⟨e0, e1, -⟩ := idx_facts t
  match a with
  | ⟨0, _⟩ => show win0_0.index t (0 : Fin 2) * 1024 + 1 * r.val = 1024 * t.val + r.val; omega
  | ⟨1, _⟩ => show win0_0.index t (1 : Fin 2) * 1024 + 1 * kk.val = kk.val; omega

theorem blkW (c : Dev nD) (t : Fin cfg0.N) (cc : Fin 8192) (kk : Fin 1024) :
    b1 m c t (ix2 cc kk) = Warr m c (ix2 cc kk) := by
  show Warr m c (((cfg0.win 1).blk t).view.emb (ix2 cc kk)) = _
  refine congrArg (Warr m c) (funext fun a => Fin.ext ?_)
  obtain ⟨-, -, e0, e1, -⟩ := idx_facts t
  match a with
  | ⟨0, _⟩ => show win0_1.index t (0 : Fin 2) * 8192 + 1 * cc.val = cc.val; omega
  | ⟨1, _⟩ => show win0_1.index t (1 : Fin 2) * 1024 + 1 * kk.val = kk.val; omega

theorem blkP (c : Dev nD) (t : Fin cfg0.N) (cc : Fin 8192) :
    b2 m c t (ix2 (0 : Fin 1) cc) = Parr m c (ix2 (0 : Fin 1) cc) := by
  show Parr m c (((cfg0.win 2).blk t).view.emb (ix2 (0 : Fin 1) cc)) = _
  refine congrArg (Parr m c) (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 8192 + 1 * cc.val = cc.val; omega

theorem blkT (c : Dev nD) (t : Fin cfg0.N) (r : Fin 1024) :
    b3 m c t (ix2 r (0 : Fin 1)) = Tarr m c (ix2 (grow t r) (0 : Fin 1)) := by
  show Tarr m c (((cfg0.win 3).blk t).view.emb (ix2 r (0 : Fin 1))) = _
  refine congrArg (Tarr m c) (funext fun a => Fin.ext ?_)
  obtain ⟨-, -, -, -, -, -, e0, e1, -⟩ := idx_facts t
  match a with
  | ⟨0, _⟩ => show win0_3.index t (0 : Fin 2) * 1024 + 1 * r.val = 1024 * t.val + r.val; omega
  | ⟨1, _⟩ => show win0_3.index t (1 : Fin 2) * 1 + 1 * 0 = 0; omega

attribute [local irreducible] Cert.KernelIdeal.Body.carried Cert.KernelIdeal.Gen.k0_pay8

set_option maxHeartbeats 1000000 in
/-- What point `t` writes back is block `t` of the result column's function of the arrays. -/
theorem flushed_eq (c : Dev nD) (hA : ∀ i, IsReal (Aarr m c i)) (hW : ∀ i, IsReal (Warr m c i)) (hP : ∀ i, IsReal (Parr m c i))
    (hT : ∀ n : Fin 4096, (Tarr m c (ix2 n (0 : Fin 1))).toNat < 8192) (t : Fin cfg0.N) :
    (dats m 0 c).flushed 4 t
      = ((cfg0.win 4).blk t).view.read (Elt Ideal) (G (Aarr m c) (Warr m c) (Parr m c) (Tarr m c)) := by
  show (cfg0.win 4).cut (grid0.coords t) ((dats m 0 c).after 4 t) = _
  rw [after0_4]
  unfold outsAt0
  rw [Body.out_eq]
  funext j
  obtain ⟨r, q, rfl⟩ : ∃ (r : Fin 1024) (q : Fin 1), j = ix2 r q := ⟨j 0, j 1, eq_ix2 j⟩
  obtain rfl : q = 0 := Subsingleton.elim _ _
  have hA' : ∀ i, IsReal (b0 m c t i) := fun i => hA _
  have hW' : ∀ i, IsReal (b1 m c t i) := fun i => hW _
  have hP' : ∀ i, IsReal (b2 m c t i) := fun i => hP _
  have hT' : ∀ r : Fin 1024, (b3 m c t (ix2 r (0 : Fin 1))).toNat < 8192 := fun r => by rw [blkT]; exact hT _
  show k0_pay8 (F := Ideal) (carried (b0 m c t) (b1 m c t) (b2 m c t) (b3 m c t) 16).1 (carried (b0 m c t) (b1 m c t) (b2 m c t) (b3 m c t) 16).2.1
      (carried (b0 m c t) (b1 m c t) (b2 m c t) (b3 m c t) 16).2.2 (ix2 r (0 : Fin 1))
    = G (Aarr m c) (Warr m c) (Parr m c) (Tarr m c) (((cfg0.win 4).blk t).view.emb (ix2 r (0 : Fin 1)))
  rw [row_value (b0 m c t) (b1 m c t) (b2 m c t) (b3 m c t) hA' hW' hP' hT' r]
  have hn : (⟨((((cfg0.win 4).blk t).view.emb (ix2 r (0 : Fin 1))) 0).val, idx2_lt0 _⟩ : Fin 4096) = grow t r := by
    apply Fin.ext
    obtain ⟨-, -, -, -, -, -, -, -, e0, -⟩ := idx_facts t
    show win0_4.index t (0 : Fin 2) * 1024 + 1 * r.val = 1024 * t.val + r.val
    omega
  have hz : ∀ cc, zk (b0 m c t) (b1 m c t) (b2 m c t) r cc = zA (Aarr m c) (Warr m c) (Parr m c) (grow t r) cc := by
    intro cc
    unfold zk zA
    rw [blkP]
    refine congrArg (fun z : ℝ => z + (Parr m c (ix2 (0 : Fin 1) cc)).toReal) (Finset.sum_congr rfl fun kk _ => ?_)
    rw [blkA, blkW]
  have ht : tcls (b3 m c t) hT' r = tA (Tarr m c) (grow t r) := by
    apply Fin.ext
    show (b3 m c t (ix2 r (0 : Fin 1))).toNat = (Tarr m c (ix2 (grow t r) (0 : Fin 1))).toNat % 8192
    rw [blkT, Nat.mod_eq_of_lt (hT _)]
  unfold G rowA
  rw [hn, ht]
  simp only [hz]

/-- An index of the result column is in point `t`'s block iff each coordinate is in the block's range. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_call0_v45).slice (win0_4.rect t)).set ↔ _
  rw [View.set_slice_whole, Rect.mem_set_unit]
  exact Iff.rfl

/-- Every index of the result column is in the block of the point its row belongs to. -/
theorem cover (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 4 := N_0
  refine ⟨⟨(i 0).val / 1024, by omega⟩, flush0_4 _, ?_⟩
  rw [mem_blk4]
  obtain ⟨-, -, -, -, -, -, -, -, e0, e1, -⟩ := idx_facts ⟨(i 0).val / 1024, by omega⟩
  intro a
  match a with
  | ⟨0, _⟩ =>
    show win0_4.index ⟨(i 0).val / 1024, _⟩ (0 : Fin 2) * 1024 ≤ (i 0).val ∧ (i 0).val < win0_4.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, _⟩ (1 : Fin 2) * 1 ≤ (i 1).val ∧ (i 1).val < win0_4.index ⟨(i 0).val / 1024, _⟩ (1 : Fin 2) * 1 + 1
    rw [e1]; omega

/-- The result column after the run. -/
theorem final (c : Dev nD) (hA : ∀ i, IsReal (Aarr m c i)) (hW : ∀ i, IsReal (Warr m c i)) (hP : ∀ i, IsReal (Parr m c i))
    (hT : ∀ n : Fin 4096, (Tarr m c (ix2 n (0 : Fin 1))).toNat < 8192) :
    (dats m 0 c).arrAt 4 cfg0.N = G (Aarr m c) (Warr m c) (Parr m c) (Tarr m c) :=
  (dats m 0 c).arrAt_eq_of_cover 4 (G (Aarr m c) (Warr m c) (Parr m c) (Tarr m c))
    (fun t _ => flushed_eq m c hA hW hP hT t) cover

end Cert.KernelIdeal.Flush

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.KPrefix.lean ====
/-
  The arrays the region reads, entry by entry, in terms of the scaled unit rows Xn, the per-class weights s and the
  scaled unit proxies P (the same host operations on both sides, so the reference's stage functions name them).
  The [4096 × 1024] operand is (Xn², Xn) side by side; the [8192 × 1024] weight matrix is (−s, 2·P·s) side by side;
  the bias row is −∑_d P²·s; the target column is the targets, unchanged by the clamp when they are class indices; and
  the regulariser's scalar is the reference's.
-/
import proofs.«412588_j19061064860142_3_alg».proof.Proof.KFlush
import proofs.«412588_j19061064860142_3_alg».proof.Proof.RefRead
import proofs.«412588_j19061064860142_3_alg».proof.Proof.LibTRef
import Idealize.ShloMosaic.PureOps.Ideal.Laws
import Idealize.ShloMosaic.Lib.ValueIdx
import Idealize.ShloMosaic.Lib.Pipeline.Value
import Idealize.ShloMosaic.Lib.StableHlo.Run
import Idealize.ShloMosaic.Lib.StableHlo.Predicate

noncomputable section

open scoped BigOperators

set_option maxRecDepth 16384

namespace Cert.KernelIdeal.Prefix

open Idealize.ShloMosaic Idealize.ShloMosaic.TcCoe Idealize.ShloMosaic.ValueIdx
open Idealize.SL Idealize.SL.Sem
open Cert.KernelIdeal Cert.KernelIdeal.Gen Cert.KernelIdeal.Flush

variable (m : (ℓ : Loc nD τ sig) → Buf (Elt Ideal) ℓ) (c : Dev nD)

/-- The scaled unit rows, the per-class weights, the scaled unit proxies: the reference's stage functions of the
    kernel's own argument arrays. -/
abbrev Xn : (⟨2, ![4096, 512]⟩ : Shape).Idx → EReal :=
  Cert.ReferenceIdeal.ReadP.val_main_v15 (F := Ideal) (m ((c : Thread nD τ).loc main_arg0))
abbrev sW : (⟨2, ![8192, 512]⟩ : Shape).Idx → EReal :=
  Cert.ReferenceIdeal.ReadP.val_main_v1 (F := Ideal) (m ((c : Thread nD τ).loc main_arg4))
abbrev Pu : (⟨2, ![8192, 512]⟩ : Shape).Idx → EReal :=
  Cert.ReferenceIdeal.ReadP.val_main_v8 (F := Ideal) (m ((c : Thread nD τ).loc main_arg3))

/-! ## The arrays as wholes

Each buffer the region reads is the fold of the host operations over the launch contents; unfolded, it is the same
composition of operations that the reference's stage functions name. -/

section Whole

open Idealize.ShloMosaic.StableHlo

/-- The scaled unit rows, as the region finds them. -/
theorem Xn_eq : (V m c main_call0_v15 : (⟨2, ![4096, 512]⟩ : Shape).Idx → EReal) = Xn m c := by
  show StableHlo.after hostOps0 (fun b => m (c, b)) (Proc.devRef .tc main_call0_v15) = _
  after_results_simp
  simp only [Cert.LibTRef.ofBuf_toBuf]
  rfl

/-- The per-class weights, as the region finds them. -/
theorem sW_eq : (V m c main_call0_v1 : (⟨2, ![8192, 512]⟩ : Shape).Idx → EReal) = sW m c := by
  show StableHlo.after hostOps0 (fun b => m (c, b)) (Proc.devRef .tc main_call0_v1) = _
  after_results_simp
  simp only [Cert.LibTRef.ofBuf_toBuf]
  rfl

/-- The scaled unit proxies, as the region finds them. -/
theorem Pu_eq : (V m c main_call0_v8 : (⟨2, ![8192, 512]⟩ : Shape).Idx → EReal) = Pu m c := by
  show StableHlo.after hostOps0 (fun b => m (c, b)) (Proc.devRef .tc main_call0_v8) = _
  after_results_simp
  simp only [Cert.LibTRef.ofBuf_toBuf]
  rfl

/-- The operand: (Xn², Xn) side by side, then the change of format. -/
theorem A_eq : Aarr m c = truncf (F := Ideal) .bf16 (concatenate S4096x1024 1 [⟨S4096x512, mulf (F := Ideal) (Xn m c) (Xn m c)⟩, ⟨S4096x512, Xn m c⟩] concatenates_S4096x512_S4096x512_S4096x1024_d1) bitsLt_bf16_f32 := by
  show StableHlo.after hostOps0 (fun b => m (c, b)) (Proc.devRef .tc main_call0_v35) = _
  after_results_simp
  simp only [Cert.LibTRef.ofBuf_toBuf]
  rfl

/-- The weight matrix: (−s, 2·(P·s)) side by side, then the change of format. -/
theorem W_eq : Warr m c = truncf (F := Ideal) .bf16 (concatenate S8192x1024 1 [⟨S8192x512, Host.negf (F := Ideal) (sW m c)⟩, ⟨S8192x512, mulf (F := Ideal) (broadcastInDim S8192x512 ![] bcast_S_S8192x512 (constant (F := Ideal) S_ .f32 0x40000000#32)) (mulf (F := Ideal) (Pu m c) (sW m c))⟩] concatenates_S8192x512_S8192x512_S8192x1024_d1) bitsLt_bf16_f32 := by
  show StableHlo.after hostOps0 (fun b => m (c, b)) (Proc.devRef .tc main_call0_v40) = _
  after_results_simp
  simp only [Cert.LibTRef.ofBuf_toBuf]
  rfl

/-- The bias row: minus the row sums of P·P·s, laid out as one row. -/
theorem P_eq : Parr m c = fun i => shapeCast S1x8192 (Host.negf (F := Ideal) (Host.reduceAdd (F := Ideal) (mulf (F := Ideal) (mulf (F := Ideal) (Pu m c) (Pu m c)) (sW m c)) (constant (F := Ideal) S_ .f32 0x00000000#32) reducesTo_S8192x512_S8192_d1 h_S_)) shapeCasts_S8192_S1x8192 i := by
  show StableHlo.after hostOps0 (fun b => m (c, b)) (Proc.devRef .tc main_call0_v42) = _
  after_results_simp
  simp only [Cert.LibTRef.ofBuf_toBuf]
  rfl

end Whole

/-! ## Read at an index -/

/-- The word 0x40000000 is the real number 2. -/
private theorem two_bits : Ideal.ofBits .f32 0x40000000#32 = ((2 : ℝ) : EReal) := by
  simp [Ideal.ofBits, Ideal.ieee, -EReal.coe_mul]; norm_num

/-- A word below 8192 is unchanged by the clamp to [0, 8191]: it is not negative, and it is not above 8191. -/
private theorem clamp_id (w : BitVec 32) (hw : w.toNat < 8192) : IntOp.minsi 8191#32 (IntOp.maxsi 0#32 w) = w := by
  have hti : w.toInt = w.toNat := StableHlo.Predicate.toInt_eq_toNat_of_lt (by omega)
  have h0 : (0#32 : BitVec 32).toInt = 0 := by decide
  have h1 : (8191#32 : BitVec 32).toInt = 8191 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h1, decide_eq_true_eq]; omega

/-- The left half of the operand is Xn squared. -/
theorem A_left (n : Fin 4096) (d : Fin 512) :
    Aarr m c (ix2 n (⟨d.val, by have := d.isLt; omega⟩ : Fin 1024)) = Xn m c (ix2 n d) * Xn m c (ix2 n d) := by
  rw [A_eq]
  exact concatenate_pair_apply_left (t := S4096x1024) (s₁ := S4096x512) (s₂ := S4096x512) 1
    (mulf (F := Ideal) (Xn m c) (Xn m c)) (Xn m c) concatenates_S4096x512_S4096x512_S4096x1024_d1 _ rfl (ix2 n d)
    (fun b => by match b with | ⟨0, _⟩ => rfl | ⟨1, _⟩ => rfl)

/-- The right half of the operand is Xn. -/
theorem A_right (n : Fin 4096) (d : Fin 512) :
    Aarr m c (ix2 n (⟨512 + d.val, by have := d.isLt; omega⟩ : Fin 1024)) = Xn m c (ix2 n d) := by
  rw [A_eq]
  exact concatenate_pair_apply_right (t := S4096x1024) (s₁ := S4096x512) (s₂ := S4096x512) 1
    (mulf (F := Ideal) (Xn m c) (Xn m c)) (Xn m c) concatenates_S4096x512_S4096x512_S4096x1024_d1 _ rfl rfl (ix2 n d)
    (fun b hb => by match b with | ⟨0, _⟩ => rfl | ⟨1, _⟩ => exact absurd rfl hb)
    (by show d.val + 512 = 512 + d.val; omega)

/-- The left half of the weight matrix is minus the weights. -/
theorem W_left (cc : Fin 8192) (d : Fin 512) :
    Warr m c (ix2 cc (⟨d.val, by have := d.isLt; omega⟩ : Fin 1024)) = -(sW m c (ix2 cc d)) := by
  rw [W_eq]
  exact concatenate_pair_apply_left (t := S8192x1024) (s₁ := S8192x512) (s₂ := S8192x512) 1
    (Host.negf (F := Ideal) (sW m c)) _ concatenates_S8192x512_S8192x512_S8192x1024_d1 _ rfl (ix2 cc d)
    (fun b => by match b with | ⟨0, _⟩ => rfl | ⟨1, _⟩ => rfl)

/-- The right half of the weight matrix is twice the weighted proxies. -/
theorem W_right (cc : Fin 8192) (d : Fin 512) :
    Warr m c (ix2 cc (⟨512 + d.val, by have := d.isLt; omega⟩ : Fin 1024))
      = ((2 : ℝ) : EReal) * (Pu m c (ix2 cc d) * sW m c (ix2 cc d)) := by
  rw [W_eq, ← two_bits]
  exact concatenate_pair_apply_right (t := S8192x1024) (s₁ := S8192x512) (s₂ := S8192x512) 1
    (Host.negf (F := Ideal) (sW m c)) _ concatenates_S8192x512_S8192x512_S8192x1024_d1 _ rfl rfl (ix2 cc d)
    (fun b hb => by match b with | ⟨0, _⟩ => rfl | ⟨1, _⟩ => exact absurd rfl hb)
    (by show d.val + 512 = 512 + d.val; omega)

/-- The bias row is minus the weighted squared norm of the class's proxy. -/
theorem P_at (cc : Fin 8192) :
    Parr m c (ix2 (0 : Fin 1) cc) = -(∑ d : Fin 512, Pu m c (ix2 cc d) * Pu m c (ix2 cc d) * sW m c (ix2 cc d)) := by
  rw [P_eq]
  show shapeCast S1x8192 _ shapeCasts_S8192_S1x8192 (ix2 (0 : Fin 1) cc) = _
  rw [shapeCast_apply _ shapeCasts_S8192_S1x8192 (ix2 (0 : Fin 1) cc) (ix1 cc)
    (by rw [Shape.rowMajor_val_one, Shape.rowMajor_val_two]; show cc.val = 0 * 8192 + cc.val; omega)]
  show -(Ideal.hostReduceAdd reducesTo_S8192x512_S8192_d1 _ (Ideal.ofBits .f32 0x00000000#32) (ix1 cc)) = _
  rw [Ideal.hostReduceAdd_single reducesTo_S8192x512_S8192_d1 (by decide), Ideal.ofBits_zero_f32, zero_add]
  refine congrArg (fun z : EReal => -z) (Finset.sum_congr rfl fun k _ => ?_)
  exact congrArg (mulf (F := Ideal) (mulf (F := Ideal) (Pu m c) (Pu m c)) (sW m c))
    (funext fun a => Fin.ext (by match a with | ⟨0, _⟩ => rfl | ⟨1, _⟩ => rfl))

/-- The target column holds the targets when they are class indices. -/
theorem T_at (n : Fin 4096) (h : (m ((c : Thread nD τ).loc main_arg2) (ix1 n) : BitVec 32).toNat < 8192) :
    Tarr m c (ix2 n (0 : Fin 1)) = m ((c : Thread nD τ).loc main_arg2) (ix1 n) := by
  show StableHlo.after hostOps0 (fun b => m (c, b)) (Proc.devRef .tc main_call0_v44) (ix2 n (0 : Fin 1)) = _
  open Idealize.ShloMosaic.StableHlo in after_results_simp
  simp only [Cert.LibTRef.ofBuf_toBuf]
  show shapeCast S4096x1 (minsi (broadcastInDim S4096 ![] bcast_S_S4096 (constantI S_ 32 8191#32))
      (maxsi (broadcastInDim S4096 ![] bcast_S_S4096 (constantI S_ 32 0#32)) (m ((c : Thread nD τ).loc main_arg2))))
      shapeCasts_S4096_S4096x1 (ix2 n (0 : Fin 1)) = _
  rw [shapeCast_apply _ shapeCasts_S4096_S4096x1 (ix2 n (0 : Fin 1)) (ix1 n)
    (by rw [Shape.rowMajor_val_one, Shape.rowMajor_val_two]; show n.val = n.val * 1 + 0; omega)]
  exact clamp_id _ h

/-- The regulariser's scalar, as the region finds it, is the reference's. -/
theorem KL_eq :
    (V m c main_call0_v32 : (⟨0, ![]⟩ : Shape).Idx → EReal)
      = Cert.ReferenceIdeal.ReadP.val_main_v68 (F := Ideal) (m ((c : Thread nD τ).loc main_arg3)) (m ((c : Thread nD τ).loc main_arg4)) := by
  show StableHlo.after hostOps0 (fun b => m (c, b)) (Proc.devRef .tc main_call0_v32) = _
  open Idealize.ShloMosaic.StableHlo in after_results_simp
  simp only [Cert.LibTRef.ofBuf_toBuf]
  rfl

end Cert.KernelIdeal.Prefix

end
-- ==== Proof.KTail.lean ====
/-
  The host operations after the region, and the kernel program's result.

  After the region @main sums the [4096 × 1] result column, divides by 4096 and adds 0.2 times the regulariser's scalar
  (computed before the region). With the column's entries the casts of the real row losses, the sum is the cast of their
  sum, and the quotient by the real 4096 the cast of their mean.
-/
import proofs.«412588_j19061064860142_3_alg».proof.Proof.KFlush
import proofs.«412588_j19061064860142_3_alg».proof.Proof.LibTRef
import proofs.«412588_j19061064860142_3_alg».proof.Proof.OnlineLse
import Idealize.ShloMosaic.Lib.StableHlo.Run
import Idealize.ShloMosaic.PureOps.Ideal.Laws
import Idealize.ShloMosaic.Lib.ValueIdx

set_option maxRecDepth 16384

noncomputable section

open scoped BigOperators

namespace Cert.KernelIdeal.Tail

open Idealize.ShloMosaic Idealize.ShloMosaic.TcCoe Idealize.ShloMosaic.ValueIdx Idealize.ShloMosaic.StableHlo
open Idealize.SL Idealize.SL.Sem
open Cert.Spec Cert.KernelIdeal Cert.KernelIdeal.Gen Cert.KernelIdeal.Flush

variable (m : (ℓ : Loc nD τ sig) → Buf (Elt Ideal) ℓ)

/-- The mean of the row losses, from the arrays. -/
def ceA (A : Vec Ideal S4096x1024 .bf16) (W : Vec Ideal S8192x1024 .bf16) (P : Vec Ideal S1x8192 .f32)
    (T : Vec Ideal S4096x1 .i32) : ℝ :=
  (∑ n : Fin 4096, rowA A W P T n) / 4096

/-- The word 0x45800000 is the number 4096. -/
theorem lit4096 : Ideal.ofBits .f32 0x45800000#32 = ((4096 : ℝ) : EReal) := by
  simp [Ideal.ofBits, Ideal.ieee, -EReal.coe_mul]; norm_num

/-- The tail's operations applied to the result column `X` and the regulariser's scalar. -/
theorem tail_term (c : Dev nD) (X : (⟨S4096x1, .f32⟩ : BufTy).Contents (Elt Ideal)) (hX : (dats m 0 c).arrAt 4 cfg0.N = X) :
    (Pipeline.afterTail₀ cfgs (dats m) 0 (V0 m) [hostOps1] c main_v0 : S_.Idx → EReal)
      = addf (F := Ideal) (Host.divf (F := Ideal) (Host.reduceAdd (F := Ideal) X (constant (F := Ideal) S_ .f32 0x00000000#32) reducesTo_S4096x1_S_d0_1 h_S_)
            (constant (F := Ideal) S_ .f32 0x45800000#32))
          (mulf (F := Ideal) (constant (F := Ideal) S_ .f32 0x3E4CCCCD#32) (V m c main_call0_v32 : S_.Idx → EReal)) := by
  unfold Pipeline.afterTail₀
  show StableHlo.after hostOps1 _ (Proc.devRef .tc main_v0) = _
  after_results
  simp only [Cert.LibTRef.ofBuf_toBuf]
  have e45 : Pipeline.withArrays (cfgs 0).spec c (V0 m c) (fun w => (dats m 0 c).arrAt w (cfgs 0).N) (Proc.devRef .tc main_call0_v45) = X :=
    (Pipeline.withArrays_arr spec0 launch0.win.arr_inj c _ _ 4).trans hX
  have e32 : Pipeline.withArrays (cfgs 0).spec c (V0 m c) (fun w => (dats m 0 c).arrAt w (cfgs 0).N) (Proc.devRef .tc main_call0_v32) = V m c main_call0_v32 :=
    Pipeline.withArrays_of_ne _ c (V0 m c) _ main_call0_v32 (by exact (by decide : ∀ w, Pipeline.arrRef spec0 w ≠ main_call0_v32))
  show addf (F := Ideal) (Host.divf (F := Ideal) (Host.reduceAdd (F := Ideal) (Pipeline.withArrays (cfgs 0).spec c (V0 m c) (fun w => (dats m 0 c).arrAt w (cfgs 0).N) (Proc.devRef .tc main_call0_v45))
      (constant (F := Ideal) S_ .f32 0x00000000#32) reducesTo_S4096x1_S_d0_1 h_S_) (constant (F := Ideal) S_ .f32 0x45800000#32))
    (mulf (F := Ideal) (constant (F := Ideal) S_ .f32 0x3E4CCCCD#32) (Pipeline.withArrays (cfgs 0).spec c (V0 m c) (fun w => (dats m 0 c).arrAt w (cfgs 0).N) (Proc.devRef .tc main_call0_v32))) = _
  rw [e45, e32]

/-- The sum of the result column is the cast of the sum of the row losses. -/
theorem sum_G (A : Vec Ideal S4096x1024 .bf16) (W : Vec Ideal S8192x1024 .bf16) (P : Vec Ideal S1x8192 .f32)
    (T : Vec Ideal S4096x1 .i32) (i : S_.Idx) :
    Host.reduceAdd (F := Ideal) (G A W P T) (constant S_ .f32 0x00000000#32) reducesTo_S4096x1_S_d0_1 h_S_ i
      = ((∑ n : Fin 4096, rowA A W P T n : ℝ) : EReal) := by
  simp only [Host.reduceAdd, Ideal.hostReduceAdd_def]
  rw [Ideal.hostReduceAdd_total reducesTo_S4096x1_S_d0_1 (fun b => b.elim0) _ _ i, constant_apply, Ideal.ofBits_zero_f32,
    zero_add, sum_idx2, Cert.OnlineLse.coe_sum]
  refine Finset.sum_congr rfl fun n _ => ?_
  rw [Fin.sum_univ_one]
  rfl

/-- The kernel program's result: the mean row loss plus 0.2 times the regulariser's scalar. -/
theorem tail_value (c : Dev nD) (hA : ∀ i, IsReal (Aarr m c i)) (hW : ∀ i, IsReal (Warr m c i)) (hP : ∀ i, IsReal (Parr m c i))
    (hT : ∀ n : Fin 4096, (Tarr m c (ix2 n (0 : Fin 1))).toNat < 8192) :
    (Pipeline.afterTail₀ cfgs (dats m) 0 (V0 m) [hostOps1] c main_v0 : S_.Idx → EReal)
      = fun _ => ((ceA (Aarr m c) (Warr m c) (Parr m c) (Tarr m c) : ℝ) : EReal)
          + Ideal.ofBits .f32 0x3E4CCCCD#32 * (V m c main_call0_v32 : (⟨0, ![]⟩ : Shape).Idx → EReal) ix0 := by
  rw [tail_term m c _ (final m c hA hW hP hT)]
  funext i
  obtain rfl := eq_ix0 i
  show Ideal.div (Host.reduceAdd (F := Ideal) (G (Aarr m c) (Warr m c) (Parr m c) (Tarr m c)) (constant S_ .f32 0x00000000#32) reducesTo_S4096x1_S_d0_1 h_S_ ix0)
        (Ideal.ofBits .f32 0x45800000#32)
      + Ideal.ofBits .f32 0x3E4CCCCD#32 * (V m c main_call0_v32 : (⟨0, ![]⟩ : Shape).Idx → EReal) ix0 = _
  rw [sum_G, lit4096, Ideal.div_coe (by norm_num : (4096 : ℝ) ≠ 0), ← EReal.coe_mul]
  rw [mul_one_div]
  rfl

end Cert.KernelIdeal.Tail

end
-- ==== Proof.ScoreAlg.lean ====
/-
  The fused product is the expanded distance, negated.

  The kernel multiplies the row (x², x) of length 1024 against the row (−s, 2·p·s) of length 1024 and adds −∑ p²·s; the
  reference computes ∑ x²·s − 2·∑ x·(p·s) + ∑ p²·s and negates. Over the reals the two agree: the sum over 1024 splits into
  the sums over the two halves, and the rest is distributivity.
-/
import Mathlib.Algebra.BigOperators.Fin
import Mathlib.Tactic.Ring
import Mathlib.Data.Real.Basic

open scoped BigOperators

namespace Cert.ScoreAlg

/-- The fused score against the expanded distance. -/
theorem fused (x s p : Fin 512 → ℝ) (a w : Fin 1024 → ℝ) (b : ℝ)
    (hal : ∀ d : Fin 512, a ⟨d.val, by have := d.isLt; omega⟩ = x d * x d)
    (har : ∀ d : Fin 512, a ⟨512 + d.val, by have := d.isLt; omega⟩ = x d)
    (hwl : ∀ d : Fin 512, w ⟨d.val, by have := d.isLt; omega⟩ = -(s d))
    (hwr : ∀ d : Fin 512, w ⟨512 + d.val, by have := d.isLt; omega⟩ = 2 * (p d * s d))
    (hb : b = -(∑ d : Fin 512, p d * p d * s d)) :
    (∑ kk : Fin 1024, a kk * w kk) + b
      = -(((∑ d : Fin 512, x d * x d * s d) - 2 * (∑ d : Fin 512, x d * (p d * s d))) + ∑ d : Fin 512, p d * p d * s d) := by
  have split : (∑ kk : Fin 1024, a kk * w kk)
      = (∑ d : Fin 512, (x d * x d) * (-(s d))) + ∑ d : Fin 512, x d * (2 * (p d * s d)) := by
    have h := Fin.sum_univ_add (a := 512) (b := 512) (fun kk : Fin (512 + 512) => a kk * w kk)
    refine h.trans ?_
    refine congrArg₂ (· + ·) (Finset.sum_congr rfl fun d _ => ?_) (Finset.sum_congr rfl fun d _ => ?_)
    · have e : (Fin.castAdd 512 d : Fin (512 + 512)) = ⟨d.val, by have := d.isLt; omega⟩ := Fin.ext rfl
      rw [e, hal d, hwl d]
    · have e : (Fin.natAdd 512 d : Fin (512 + 512)) = ⟨512 + d.val, by have := d.isLt; omega⟩ := Fin.ext rfl
      rw [e, har d, hwr d]
  have h1 : (∑ d : Fin 512, (x d * x d) * (-(s d))) = -(∑ d : Fin 512, x d * x d * s d) := by
    rw [← Finset.sum_neg_distrib]; exact Finset.sum_congr rfl fun d _ => by ring
  have h2 : (∑ d : Fin 512, x d * (2 * (p d * s d))) = 2 * ∑ d : Fin 512, x d * (p d * s d) := by
    rw [Finset.mul_sum]; exact Finset.sum_congr rfl fun d _ => by ring
  rw [split, h1, h2, hb]; ring

end Cert.ScoreAlg
-- ==== Proof.KBridge.lean ====
/-
  From the kernel's operand arrays to the common vocabulary.

  With real inputs, the scaled unit rows Xn, the weights s and the scaled unit proxies P have real entries, so the operand
  arrays (Xn², Xn), (−s, 2·P·s) and −∑ P²·s have real entries too; the fused logit of row n and class c is the expanded
  logit (the sum over 1024 splits into its halves, and distributivity); the target column holds the targets. So each row's
  loss, and their mean, are the ones the common vocabulary states, and the kernel program's result is the mean
  cross-entropy plus 0.2 times the regulariser's scalar.
-/
import proofs.«412588_j19061064860142_3_alg».proof.Proof.KPrefix
import proofs.«412588_j19061064860142_3_alg».proof.Proof.KTail
import proofs.«412588_j19061064860142_3_alg».proof.Proof.RealPrefix
import proofs.«412588_j19061064860142_3_alg».proof.Proof.ScoreAlg
import proofs.«412588_j19061064860142_3_alg».proof.Proof.Spec
import proofs.«412588_j19061064860142_3_alg».proof.Proof.OnlineLse

set_option maxRecDepth 16384

noncomputable section

open scoped BigOperators

namespace Cert.KernelIdeal.Bridge

open Idealize.ShloMosaic Idealize.ShloMosaic.TcCoe Idealize.ShloMosaic.ValueIdx
open Idealize.SL Idealize.SL.Sem
open Cert.Spec Cert.RealPrefix Cert.KernelIdeal Cert.KernelIdeal.Gen Cert.KernelIdeal.Flush Cert.KernelIdeal.Prefix Cert.KernelIdeal.Tail

variable (m : (ℓ : Loc nD τ sig) → Buf (Elt Ideal) ℓ) (c : Dev nD)

/-- The argument arrays at their literal types. -/
abbrev a0 : (⟨2, ![4096, 512]⟩ : Shape).Idx → EReal := m ((c : Thread nD τ).loc main_arg0)
abbrev a2 : (⟨1, ![4096]⟩ : Shape).Idx → BitVec 32 := m ((c : Thread nD τ).loc main_arg2)
abbrev a3 : (⟨2, ![8192, 512]⟩ : Shape).Idx → EReal := m ((c : Thread nD τ).loc main_arg3)
abbrev a4 : (⟨2, ![8192, 512]⟩ : Shape).Idx → EReal := m ((c : Thread nD τ).loc main_arg4)

/-- The real part of a sum of real extended reals is the sum of the real parts. -/
theorem toReal_sum {ι : Type} (S : Finset ι) (f : ι → EReal) (hf : ∀ k ∈ S, IsReal (f k)) :
    (∑ k ∈ S, f k).toReal = ∑ k ∈ S, (f k).toReal := by
  have h : ∑ k ∈ S, f k = ((∑ k ∈ S, (f k).toReal : ℝ) : EReal) := by
    rw [Cert.OnlineLse.coe_sum]; exact Finset.sum_congr rfl fun k hk => ((hf k hk).coe_toReal).symm
  rw [h, EReal.toReal_coe]

/-- A column below 1024 is in the left half or 512 past a column of the right half. -/
theorem half_cases (kk : Fin 1024) :
    (∃ d : Fin 512, kk = ⟨d.val, by have := d.isLt; omega⟩) ∨ (∃ d : Fin 512, kk = ⟨512 + d.val, by have := d.isLt; omega⟩) := by
  by_cases h : kk.val < 512
  · exact Or.inl ⟨⟨kk.val, h⟩, Fin.ext rfl⟩
  · exact Or.inr ⟨⟨kk.val - 512, by have := kk.isLt; omega⟩, Fin.ext (by show kk.val = 512 + (kk.val - 512); omega)⟩

section
variable (h0 : ∀ i, IsReal (a0 m c i)) (h3 : ∀ i, IsReal (a3 m c i)) (h4 : ∀ i, IsReal (a4 m c i))
  (hT : ∀ n : Fin 4096, (a2 m c (ix1 n)).toNat < 8192)

include h0 in
theorem xn_r : ∀ i, IsReal (Xn m c i) := Cert.RealPrefix.xn_real (a0 m c) h0
include h4 in
theorem s_r : ∀ i, IsReal (sW m c i) := Cert.RealPrefix.s_real (a4 m c) h4
include h3 in
theorem p_r : ∀ i, IsReal (Pu m c i) := Cert.RealPrefix.p_real (a3 m c) h3

include h0 in
/-- The operand (Xn², Xn) has real entries. -/
theorem A_real : ∀ i, IsReal (Aarr m c i) := by
  intro i
  obtain ⟨n, kk, rfl⟩ : ∃ (n : Fin 4096) (kk : Fin 1024), i = ix2 n kk := ⟨i 0, i 1, eq_ix2 i⟩
  rcases half_cases kk with ⟨d, rfl⟩ | ⟨d, rfl⟩
  · rw [A_left]; exact isReal_mul (xn_r m c h0 _) (xn_r m c h0 _)
  · rw [A_right]; exact xn_r m c h0 _

include h3 h4 in
/-- The weight matrix (−s, 2·P·s) has real entries. -/
theorem W_real : ∀ i, IsReal (Warr m c i) := by
  intro i
  obtain ⟨cc, kk, rfl⟩ : ∃ (cc : Fin 8192) (kk : Fin 1024), i = ix2 cc kk := ⟨i 0, i 1, eq_ix2 i⟩
  rcases half_cases kk with ⟨d, rfl⟩ | ⟨d, rfl⟩
  · rw [W_left]; exact isReal_neg (s_r m c h4 _)
  · rw [W_right]; exact isReal_mul (IsReal.coe 2) (isReal_mul (p_r m c h3 _) (s_r m c h4 _))

include h3 h4 in
/-- The bias row −∑ P²·s has real entries. -/
theorem Pp_real : ∀ i, IsReal (Parr m c i) := by
  intro i
  obtain ⟨q, cc, rfl⟩ : ∃ (q : Fin 1) (cc : Fin 8192), i = ix2 q cc := ⟨i 0, i 1, eq_ix2 i⟩
  obtain rfl : q = 0 := Subsingleton.elim _ _
  rw [P_at]
  exact isReal_neg (isReal_sum _ _ fun d _ => isReal_mul (isReal_mul (p_r m c h3 _) (p_r m c h3 _)) (s_r m c h4 _))

include hT in
/-- The target column holds class indices. -/
theorem T_range : ∀ n : Fin 4096, (Tarr m c (ix2 n (0 : Fin 1))).toNat < 8192 := by
  intro n
  rw [T_at m c n (hT n)]
  exact hT n

include h0 h3 h4 in
/-- The fused logit is the expanded logit. -/
theorem zA_eq (n : Fin 4096) (cc : Fin 8192) :
    zA (Aarr m c) (Warr m c) (Parr m c) n cc = zr (Xn m c) (sW m c) (Pu m c) n cc := by
  unfold zA zr
  refine Cert.ScoreAlg.fused (fun d => (Xn m c (ix2 n d)).toReal) (fun d => (sW m c (ix2 cc d)).toReal)
    (fun d => (Pu m c (ix2 cc d)).toReal) (fun kk => (Aarr m c (ix2 n kk)).toReal) (fun kk => (Warr m c (ix2 cc kk)).toReal)
    ((Parr m c (ix2 (0 : Fin 1) cc)).toReal) ?_ ?_ ?_ ?_ ?_
  · intro d; show (Aarr m c (ix2 n _)).toReal = _; rw [A_left, EReal.toReal_mul]
  · intro d; show (Aarr m c (ix2 n _)).toReal = _; rw [A_right]
  · intro d; show (Warr m c (ix2 cc _)).toReal = _; rw [W_left, EReal.toReal_neg_eq]
  · intro d; show (Warr m c (ix2 cc _)).toReal = _; rw [W_right, EReal.toReal_mul, EReal.toReal_mul, EReal.toReal_coe]
  · rw [P_at, EReal.toReal_neg_eq, toReal_sum _ _ fun d _ =>
      isReal_mul (isReal_mul (p_r m c h3 _) (p_r m c h3 _)) (s_r m c h4 _)]
    refine congrArg Neg.neg (Finset.sum_congr rfl fun d _ => ?_)
    rw [EReal.toReal_mul, EReal.toReal_mul]

include hT in
/-- The target class read off the target column is the one read off the targets. -/
theorem tA_eq (n : Fin 4096) : tA (Tarr m c) n = tgt (a2 m c) n := by
  apply Fin.ext
  show (Tarr m c (ix2 n (0 : Fin 1))).toNat % 8192 = (a2 m c (ix1 n)).toNat % 8192
  rw [T_at m c n (hT n)]

include h0 h3 h4 hT in
/-- Each row's loss is the common vocabulary's. -/
theorem rowA_eq (n : Fin 4096) :
    rowA (Aarr m c) (Warr m c) (Parr m c) (Tarr m c) n = rowLoss (Xn m c) (sW m c) (Pu m c) (a2 m c) n := by
  unfold rowA rowLoss
  rw [tA_eq m c hT n]
  simp only [zA_eq m c h0 h3 h4]

include h0 h3 h4 hT in
/-- The kernel program's result: the mean cross-entropy plus 0.2 times the regulariser's scalar, the reference's. -/
theorem kernel_value :
    (Pipeline.afterTail₀ cfgs (dats m) 0 (V0 m) [hostOps1] c main_v0 : (⟨0, ![]⟩ : Shape).Idx → EReal)
      = fun _ => ((ce (Xn m c) (sW m c) (Pu m c) (a2 m c) : ℝ) : EReal)
          + Ideal.ofBits .f32 0x3E4CCCCD#32
            * Cert.ReferenceIdeal.ReadP.val_main_v68 (F := Ideal) (m ((c : Thread nD τ).loc main_arg3)) (m ((c : Thread nD τ).loc main_arg4)) ix0 := by
  rw [tail_value m c (A_real m c h0) (W_real m c h3 h4) (Pp_real m c h3 h4) (T_range m c hT), KL_eq]
  have hce : ceA (Aarr m c) (Warr m c) (Parr m c) (Tarr m c) = ce (Xn m c) (sW m c) (Pu m c) (a2 m c) := by
    unfold ceA ce
    simp only [rowA_eq m c h0 h3 h4 hT]
  rw [hce]

end

end Cert.KernelIdeal.Bridge

end
-- ==== Proof.lean ====
/-
  The certificate: a streaming-softmax cross-entropy kernel against its two-pass reference, over the extended reals.

  Both programs return  ce + 0.2 · kl.  The regulariser kl is computed by the same host operations on both sides. The
  cross-entropy ce is the mean over 4096 rows of  −z(n, T n) + log ∑_c exp z(n, c)  with the logits
  z(n, c) = −(∑_d Xn² s − 2 ∑_d Xn (P s) + ∑_d P² s).  The reference forms the distance matrix by two matrix products,
  applies log_softmax row by row (subtract the row maximum, exponentiate, sum, take the logarithm), gathers column T n of
  row n and negates the mean. The kernel multiplies the fused operand (Xn², Xn) against (−s, 2 P s), adds −∑ P² s, and
  streams over the 8192 classes in 16 chunks carrying a running upper value, a running sum of exponentials and the
  target's logit; per row it stores  (target term + running value) + log (running sum).  Over the reals the two agree:
  the fused product is the expanded distance (distributivity, which is where finiteness of the inputs is used), and
  m + log ∑ exp (z − m) = log ∑ exp z for every real m (so neither side's maximum needs to be known). The targets are
  class indices in [0, 8192): the kernel clamps them, the reference wraps negative ones, and on class indices both read
  column T n.
-/
import proofs.«412588_j19061064860142_3_alg».proof.Defs
import proofs.«412588_j19061064860142_3_alg».proof.Proof.Gen.Kernel
import proofs.«412588_j19061064860142_3_alg».proof.Proof.Gen.Kernel.Skeleton
import proofs.«412588_j19061064860142_3_alg».proof.Proof.Gen.Kernel.Loops
import proofs.«412588_j19061064860142_3_alg».proof.Proof.Gen.Kernel.Launch
import proofs.«412588_j19061064860142_3_alg».proof.Proof.Gen.Kernel.Points
import proofs.«412588_j19061064860142_3_alg».proof.Proof.Gen.Kernel.Frame
import proofs.«412588_j19061064860142_3_alg».proof.Proof.Gen.KernelIdeal
import proofs.«412588_j19061064860142_3_alg».proof.Proof.Gen.KernelIdeal.Skeleton
import proofs.«412588_j19061064860142_3_alg».proof.Proof.Gen.KernelIdeal.Loops
import proofs.«412588_j19061064860142_3_alg».proof.Proof.Gen.KernelIdeal.Launch
import proofs.«412588_j19061064860142_3_alg».proof.Proof.Gen.KernelIdeal.Points
import proofs.«412588_j19061064860142_3_alg».proof.Proof.Gen.KernelIdeal.Frame
import proofs.«412588_j19061064860142_3_alg».proof.Proof.Gen.ReferenceIdeal
import proofs.«412588_j19061064860142_3_alg».proof.Proof.Gen.Pre_finite_inputs
import proofs.«412588_j19061064860142_3_alg».proof.Proof.RefRun
import proofs.«412588_j19061064860142_3_alg».proof.Proof.RefRead
import proofs.«412588_j19061064860142_3_alg».proof.Proof.PreFacts
import proofs.«412588_j19061064860142_3_alg».proof.Proof.RealPrefix
import proofs.«412588_j19061064860142_3_alg».proof.Proof.RefLogits
import proofs.«412588_j19061064860142_3_alg».proof.Proof.RefSoftmax
import proofs.«412588_j19061064860142_3_alg».proof.Proof.RefValue
import proofs.«412588_j19061064860142_3_alg».proof.Proof.KBridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Spec

/-- The common value: the mean cross-entropy of the stage arrays of the arguments plus the reference's regulariser term. -/
def value (x0 : (⟨2, ![4096, 512]⟩ : Shape).Idx → EReal) (x2 : (⟨1, ![4096]⟩ : Shape).Idx → BitVec 32)
    (x3 x4 : (⟨2, ![8192, 512]⟩ : Shape).Idx → EReal) : (⟨0, ![]⟩ : Shape).Idx → EReal :=
  fun _ => ((ce (Cert.ReferenceIdeal.ReadP.val_main_v15 (F := Ideal) x0) (Cert.ReferenceIdeal.ReadP.val_main_v1 (F := Ideal) x4)
        (Cert.ReferenceIdeal.ReadP.val_main_v8 (F := Ideal) x3) x2 : ℝ) : EReal)
      + Cert.ReferenceIdeal.ReadP.val_main_v69 (F := Ideal) x3 x4 ix0

/-- The reference's result is the common value, for real float inputs and class-index targets. -/
theorem ref_eq (x0 : (⟨2, ![4096, 512]⟩ : Shape).Idx → EReal) (x2 : (⟨1, ![4096]⟩ : Shape).Idx → BitVec 32)
    (x3 x4 : (⟨2, ![8192, 512]⟩ : Shape).Idx → EReal)
    (h0 : ∀ i, IsReal (x0 i)) (h3 : ∀ i, IsReal (x3 i)) (h4 : ∀ i, IsReal (x4 i)) (hT : ∀ n : Fin 4096, (x2 (ix1 n)).toNat < 8192) :
    Cert.ReferenceIdeal.ReadP.val_main_v70 (F := Ideal) x0 x2 x3 x4 = value x0 x2 x3 x4 :=
  Cert.RefValue.ref_value x0 x2 x3 x4
    (fun n c => Cert.RefSoftmax.ref_log_softmax x0 x3 x4
      (fun n c => Cert.RefLogits.ref_logits x0 x3 x4 (Cert.RealPrefix.xn_real x0 h0) (Cert.RealPrefix.s_real x4 h4)
        (Cert.RealPrefix.p_real x3 h3) n c) n c) hT

/-- The kernel program's run: the result at the common value, the arguments unchanged. -/
theorem kernel_run (m : (ℓ : Loc Cert.KernelIdeal.nD Cert.KernelIdeal.τ Cert.KernelIdeal.sig) → Buf (Elt Ideal) ℓ)
    (ρ : Dev Cert.KernelIdeal.nD → PrngReg)
    (hf : ∀ c : Dev Cert.KernelIdeal.nD,
      (∀ i, IsReal (Cert.KernelIdeal.Bridge.a0 m c i)) ∧ (∀ i, IsReal (Cert.KernelIdeal.Bridge.a3 m c i))
        ∧ (∀ i, IsReal (Cert.KernelIdeal.Bridge.a4 m c i)) ∧ (∀ n : Fin 4096, (Cert.KernelIdeal.Bridge.a2 m c (ix1 n)).toNat < 8192)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
            = value (Cert.KernelIdeal.Bridge.a0 m c) (Cert.KernelIdeal.Bridge.a2 m c) (Cert.KernelIdeal.Bridge.a3 m c) (Cert.KernelIdeal.Bridge.a4 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  open Cert.KernelIdeal Cert.KernelIdeal.Gen in
  (θ_run defs _ _).mono (fun _ h c =>
    ⟨((h c).2 main_v0 (Pipeline.mem_restRefs_of main_v0 (by decide) (by decide))).trans
        (Cert.KernelIdeal.Bridge.kernel_value m c (hf c).1 (hf c).2.1 (hf c).2.2.1 (hf c).2.2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end at the common value of the (agreeing) arguments. -/
theorem algebraic : Cert.algebraic_KernelIdeal_ReferenceIdeal := by
  intro m ρ m' ρ' hpre hagree
  have hf : ∀ c : Dev Cert.KernelIdeal.nD,
      (∀ i, IsReal (Cert.KernelIdeal.Bridge.a0 m c i)) ∧ (∀ i, IsReal (Cert.KernelIdeal.Bridge.a3 m c i))
        ∧ (∀ i, IsReal (Cert.KernelIdeal.Bridge.a4 m c i)) ∧ (∀ n : Fin 4096, (Cert.KernelIdeal.Bridge.a2 m c (ix1 n)).toNat < 8192) :=
    fun c => Cert.PreFacts.of_pre _ _ _ _ _ (hpre c)
  refine ⟨fun c => value (Cert.KernelIdeal.Bridge.a0 m c) (Cert.KernelIdeal.Bridge.a2 m c) (Cert.KernelIdeal.Bridge.a3 m c)
      (Cert.KernelIdeal.Bridge.a4 m c), kernel_run m ρ hf, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, (hagree c).1, (hagree c).2.2.1, (hagree c).2.2.2.1, (hagree c).2.2.2.2]
  exact ref_eq _ _ _ _ (hf c).1 (hf c).2.1 (hf c).2.2.1 (hf c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
